-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel

variable [Facts]

def fn {F : FTy → Type} [FloatOps F] (main_arg0 : FVec F S256x1024 .f32) (main_arg1 : IVec S256x1024 32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  main_v3
-- ==== Kernel.lean ====
abbrev S256x1024 : Shape := ⟨2, ![256, 1024]⟩
abbrev S1x1 : Shape := ⟨2, ![1, 1]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 15
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .i32⟩
  | .hbm, ⟨2, _⟩ => ⟨S1x1, .f32⟩
  | .hbm, ⟨3, _⟩ => ⟨S1x1, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .i1⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S1, .f32⟩
  | .local _ .vmem, ⟨0, _⟩ => ⟨S256x1024, .f32⟩
  | .local _ .vmem, ⟨1, _⟩ => ⟨S256x1024, .i32⟩
  | .local _ .vmem, ⟨2, _⟩ => ⟨S1x1, .f32⟩
  | .local _ .vmem, ⟨3, _⟩ => ⟨S1x1, .f32⟩
  | .local _ .vmem, ⟨4, _⟩ => ⟨S1x1, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S256x1024_S256x1024_0_0 : ∀ a, (![0, 0] : Fin 2 → Nat) a + S256x1024.size a ≤ S256x1024.size a
  h_S256x1024 : 0 < S256x1024.numel
  natLt_1_32 : 1 < 32
  reduces_S256x1024_S256 : S256x1024.Reduces [1] S256
  shapeCasts_S256_S256x1 : S256.ShapeCasts S256x1
  broadcasts_S256x1_S256x1024 : S256x1.Broadcasts S256x1024
  reduces_S256x1_S1 : S256x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  bcast_S_S1x1 : S_.BroadcastsInDim S1x1 (![] : Fin 0 → Fin S1x1.rank)
  shapeCasts_S1x1_S1 : S1x1.ShapeCasts S1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .i32 = 32 ∨ (Rect.block (s := S256x1024) S256x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x1024 : Shape := ⟨2, ![256, 1024]⟩
abbrev S_ : Shape := ⟨0, ![]⟩
abbrev S256 : Shape := ⟨1, ![256]⟩
abbrev S256x1 : Shape := ⟨2, ![256, 1]⟩
abbrev S256x1x1024 : Shape := ⟨3, ![256, 1, 1024]⟩
abbrev S256x1024x1 : Shape := ⟨3, ![256, 1024, 1]⟩
abbrev S256x1024x1024 : Shape := ⟨3, ![256, 1024, 1024]⟩
abbrev S1 : Shape := ⟨1, ![1]⟩

abbrev nBuf : Space → Nat
  | .hbm => 95
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .i32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .i32⟩
  | .hbm, ⟨11, _⟩ => ⟨S256x1024, .i32⟩
  | .hbm, ⟨12, _⟩ => ⟨S256x1024, .i1⟩
  | .hbm, ⟨13, _⟩ => ⟨S_, .i1⟩
  | .hbm, ⟨14, _⟩ => ⟨S256, .i1⟩
  | .hbm, ⟨15, _⟩ => ⟨S_, .i1⟩
  | .hbm, ⟨16, _⟩ => ⟨S256, .i1⟩
  | .hbm, ⟨17, _⟩ => ⟨S256, .i1⟩
  | .hbm, ⟨18, _⟩ => ⟨S256, .i1⟩
  | .hbm, ⟨19, _⟩ => ⟨S256, .i32⟩
  | .hbm, ⟨20, _⟩ => ⟨S_, .i32⟩
  | .hbm, ⟨21, _⟩ => ⟨S_, .i32⟩
  | .hbm, ⟨22, _⟩ => ⟨S256, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S256x1, .i1⟩
  | .hbm, ⟨33, _⟩ => ⟨S256x1024, .i1⟩
  | .hbm, ⟨34, _⟩ => ⟨S256x1024, .i1⟩
  | .hbm, ⟨35, _⟩ => ⟨S256x1024, .i1⟩
  | .hbm, ⟨36, _⟩ => ⟨S256x1, .i1⟩
  | .hbm, ⟨37, _⟩ => ⟨S256x1024, .i1⟩
  | .hbm, ⟨38, _⟩ => ⟨S256x1024, .i1⟩
  | .hbm, ⟨39, _⟩ => ⟨S256x1x1024, .f32⟩
  | .hbm, ⟨40, _⟩ => ⟨S256x1024x1, .f32⟩
  | .hbm, ⟨41, _⟩ => ⟨S256x1024x1024, .f32⟩
  | .hbm, ⟨42, _⟩ => ⟨S256x1024x1024, .f32⟩
  | .hbm, ⟨43, _⟩ => ⟨S256x1024x1024, .f32⟩
  | .hbm, ⟨44, _⟩ => ⟨S_, .f32⟩
  | .hbm, ⟨45, _⟩ => ⟨S256x1024x1024, .f32⟩
  | .hbm, ⟨46, _⟩ => ⟨S256x1024x1024, .f32⟩
  | .hbm, ⟨47, _⟩ => ⟨S_, .f32⟩
  | .hbm, ⟨48, _⟩ => ⟨S256x1024x1024, .f32⟩
  | .hbm, ⟨49, _⟩ => ⟨S256x1024x1024, .i1⟩
  | .hbm, ⟨50, _⟩ => ⟨S256x1024x1, .i1⟩
  | .hbm, ⟨51, _⟩ => ⟨S256x1x1024, .i1⟩
  | .hbm, ⟨52, _⟩ => ⟨S256x1024x1024, .i1⟩
  | .hbm, ⟨53, _⟩ => ⟨S256x1024x1024, .i1⟩
  | .hbm, ⟨54, _⟩ => ⟨S256x1024x1024, .i1⟩
  | .hbm, ⟨55, _⟩ => ⟨S256x1024x1024, .i1⟩
  | .hbm, ⟨56, _⟩ => ⟨S256x1024x1024, .f32⟩
  | .hbm, ⟨57, _⟩ => ⟨S_, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S_, .f32⟩
  | .hbm, ⟨67, _⟩ => ⟨S256x1024, .f32⟩
  | .hbm, ⟨68, _⟩ => ⟨S256x1024, .i1⟩
  | .hbm, ⟨69, _⟩ => ⟨S256x1024, .i32⟩
  | .hbm, ⟨70, _⟩ => ⟨S_, .i32⟩
  | .hbm, ⟨71, _⟩ => ⟨S256, .i32⟩
  | .hbm, ⟨72, _⟩ => ⟨S256, .f32⟩
  | .hbm, ⟨73, _⟩ => ⟨S_, .f32⟩
  | .hbm, ⟨74, _⟩ => ⟨S256, .f32⟩
  | .hbm, ⟨75, _⟩ => ⟨S256, .i1⟩
  | .hbm, ⟨76, _⟩ => ⟨S_, .f32⟩
  | .hbm, ⟨77, _⟩ => ⟨S_, .f32⟩
  | .hbm, ⟨78, _⟩ => ⟨S256, .f32⟩
  | .hbm, ⟨79, _⟩ => ⟨S256, .f32⟩
  | .hbm, ⟨80, _⟩ => ⟨S256x1024, .f32⟩
  | .hbm, ⟨81, _⟩ => ⟨S_, .f32⟩
  | .hbm, ⟨82, _⟩ => ⟨S256, .f32⟩
  | .hbm, ⟨83, _⟩ => ⟨S256, .f32⟩
  | .hbm, ⟨84, _⟩ => ⟨S256x1024, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S256, .f32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S1, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_c_4 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_c_6 : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_9 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_cst_12 : Ref sig .tc := ⟨.hbm, 63, rfl⟩
abbrev main_v46 : Ref sig .tc := ⟨.hbm, 64, rfl⟩
abbrev main_v47 : Ref sig .tc := ⟨.hbm, 65, rfl⟩
abbrev main_cst_13 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_14 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_cst_16 : Ref sig .tc := ⟨.hbm, 76, rfl⟩
abbrev main_call1_v0 : Ref sig .tc := ⟨.hbm, 77, rfl⟩
abbrev main_call1_v1 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  bcast_S_S256x1024 : S_.BroadcastsInDim S256x1024 (![] : Fin 0 → Fin S256x1024.rank)
  reducesTo_S256x1024_S256_d1 : S256x1024.ReducesTo [1] S256
  h_S_ : 0 < S_.numel
  natLt_1_32 : 1 < 32
  reducesTo_S256_S_d0 : S256.ReducesTo [0] S_
  bcast_S256_S256x1_0 : S256.BroadcastsInDim S256x1 (![0] : Fin 1 → Fin S256x1.rank)
  bcast_S256x1_S256x1024_0_1 : S256x1.BroadcastsInDim S256x1024 (![0, 1] : Fin 2 → Fin S256x1024.rank)
  bcast_S256x1024_S256x1x1024_0_2 : S256x1024.BroadcastsInDim S256x1x1024 (![0, 2] : Fin 2 → Fin S256x1x1024.rank)
  bcast_S256x1024_S256x1024x1_0_1 : S256x1024.BroadcastsInDim S256x1024x1 (![0, 1] : Fin 2 → Fin S256x1024x1.rank)
  bcast_S256x1x1024_S256x1024x1024_0_1_2 : S256x1x1024.BroadcastsInDim S256x1024x1024 (![0, 1, 2] : Fin 3 → Fin S256x1024x1024.rank)
  bcast_S256x1024x1_S256x1024x1024_0_1_2 : S256x1024x1.BroadcastsInDim S256x1024x1024 (![0, 1, 2] : Fin 3 → Fin S256x1024x1024.rank)
  bcast_S_S256x1024x1024 : S_.BroadcastsInDim S256x1024x1024 (![] : Fin 0 → Fin S256x1024x1024.rank)
  reducesTo_S256x1024x1024_S256x1024_d2 : S256x1024x1024.ReducesTo [2] S256x1024
  reducesTo_S256x1024x1024_S256x1024_d1 : S256x1024x1024.ReducesTo [1] S256x1024
  reducesTo_S256x1024x1024_S256_d1_2 : S256x1024x1024.ReducesTo [1, 2] S256
  bcast_S_S256 : S_.BroadcastsInDim S256 (![] : Fin 0 → Fin S256.rank)
  bcast_S_S1 : S_.BroadcastsInDim S1 (![] : Fin 0 → Fin S1.rank)

variable [Facts₀]

class Facts : Prop extends Facts₀ where

variable [Facts]
-- ==== Proof.RankLossInputs.lean ====
/-
  The inputs of the ranking loss as the two programs read them: a [256, 1024] array of 32-bit labels, a label
  positive when its word is 1, and a [256, 1024] array of real logits, a score the logistic function of its logit,
  `1 / (1 + e^(-x))`, which lies in [0, 1].
-/
import Idealize.ShloMosaic.Lib.ValueIdx

noncomputable section

namespace Cert.RankLoss

open Idealize.ShloMosaic

/-- The shape of both input arrays. -/
abbrev Arr : Shape := ⟨2, ![256, 1024]⟩

/-- Label `j` of row `i` is positive: its word is 1. -/
def labelIs (g : Arr.Idx → BitVec 32) (i : Fin 256) (j : Fin 1024) : Prop := g (ValueIdx.ix2 i j) = 1#32

/-- The score of entry (`i`, `j`): the logistic function of its logit. -/
def score (X : Arr.Idx → ℝ) (i : Fin 256) (j : Fin 1024) : ℝ := (1 + Real.exp (-(X (ValueIdx.ix2 i j))))⁻¹

/-- A score lies in [0, 1]: `e^(-x) > 0`, so `1 + e^(-x) > 1`. -/
theorem score_mem (X : Arr.Idx → ℝ) (i : Fin 256) (j : Fin 1024) : 0 ≤ score X i j ∧ score X i j ≤ 1 := by
  unfold score
  have h : (0 : ℝ) < Real.exp (-(X (ValueIdx.ix2 i j))) := Real.exp_pos _
  constructor
  · exact inv_nonneg.mpr (by linarith)
  · exact inv_le_one_of_one_le₀ (by linarith)

/-- An array of real logits as the array of extended reals a program is run on. -/
def asFloat (X : Arr.Idx → ℝ) : Arr.Idx → EReal := fun i => ((X i : ℝ) : EReal)

end Cert.RankLoss

end
-- ==== Proof.FiniteInputs.lean ====
/-
  What the precondition gives: the predicate's one word is 1 exactly when every logit's absolute value lies below
  `+∞`, so an input the precondition admits holds only real numbers, and is the embedding of an array of reals.
-/
import proofs.«412084_j59390807769109_3_alg».proof.Pre_finite_inputs
import proofs.«412084_j59390807769109_3_alg».proof.Proof.Gen.Pre_finite_inputs
import proofs.«412084_j59390807769109_3_alg».proof.Proof.RankLossInputs
import Idealize.ShloMosaic.Lib.ReduceAll
import Idealize.ShloMosaic.PureOps.Ideal.Laws

noncomputable section

namespace Cert.RankLoss.Finite

open Idealize.ShloMosaic Cert.RankLoss

/-- The f32 pattern of `+∞`. -/
theorem ofBits_inf_f32 : Ideal.ofBits .f32 0x7F800000#32 = ⊤ := by
  simp [Ideal.ofBits, Ideal.ieee]

instance : Subsingleton Cert.Pre_finite_inputs.S_.Idx := ⟨fun a b => funext fun d => d.elim0⟩

/-- An input array on which the predicate is all ones is real-valued. -/
theorem real_of_pre (x : FVec Ideal Cert.Pre_finite_inputs.S256x1024 .f32) (g : IVec Cert.Pre_finite_inputs.S256x1024 32)
    (h : Cert.Pre_finite_inputs.fn (F := Ideal) x g = fun _ => 1#1) :
    ∃ X : Arr.Idx → ℝ, x = asFloat X := by
  have h0 := congrFun h ValueIdx.ix0
  dsimp only [Cert.Pre_finite_inputs.fn] at h0
  have hall := fun i => Host.reduce_andi_all _ _ _ _ _ h0 i
  have hlt : ∀ i, max (x i) (-(x i)) < ⊤ := by
    intro i
    have hi := hall i
    have : Ideal.cmp .olt (max (x i) (-(x i))) (Ideal.ofBits .f32 0x7F800000#32) = 1#1 := hi
    rw [ofBits_inf_f32] at this
    have this' : BitVec.ofBool (decide (max (x i) (-(x i)) < ⊤)) = 1#1 := this
    by_contra hne
    rw [decide_eq_false hne] at this'
    exact absurd this' (by decide)
  refine ⟨fun i => (x i).toReal, funext fun i => ?_⟩
  have hx := hlt i
  have htop : x i ≠ ⊤ := by intro e; rw [e] at hx; simp at hx
  have hbot : x i ≠ ⊥ := by intro e; rw [e] at hx; simp at hx
  exact (EReal.coe_toReal htop hbot).symm

end Cert.RankLoss.Finite

end
-- ==== Proof.KernelRun.lean ====
/-
  The kernel's run, read as a value. The pallas_call has ONE grid point, and every window's block is its whole array:
  the two inputs' blocks are the argument arrays, and each of the three [1, 1] results is written whole by the body's
  one store into it. So after the region the three result arrays hold the body's three stored values, each a function
  of the two argument arrays; the host lines after the region — the difference of the second and third results, 1 in
  place of a zero difference, the first result divided by it, the [1, 1] array recast to [1] — then give the program's
  result as ONE function `kernelResult` of the argument arrays.
-/
import proofs.«412084_j59390807769109_3_alg».proof.Proof.Gen.KernelIdeal.Frame
import Idealize.ShloMosaic.Lib.Pipeline.Value
import Idealize.ShloMosaic.Lib.StableHlo.Run

set_option maxRecDepth 16384

noncomputable section

namespace Cert.RankLoss.KernelRun

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

theorem out2_eq (x0 : Vec F S256x1024 .f32) (x1 : Vec F S256x1024 .i32) :
    out0_2 x0 x1 = k0_pay1 (k0_pay12 x1) (k0_pay13 x1) (k0_pay14 x0 x1) (k0_pay15 x0 x1) (k0_pay16 x1) (k0_pay17 x1) := by
  unfold out0_2
  rw [View.canon_unit_zero hz]
  simp only [View.ld_unit_zero (S := S256x1024) hz]

theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem iblk0_eq (c : Dev nD) (t : Fin cfg0.N) : iblk m c 0 t = V m c main_arg0 := by
  obtain ⟨e0, e1, -⟩ := idx_facts t
  funext j
  show V m c main_arg0 (((cfg0.win 0).blk t).view.emb j) = V m c main_arg0 j
  congr 1
  funext a; apply Fin.ext
  match a with
  | ⟨0, _⟩ => show win0_0.index t (0 : Fin 2) * 256 + 1 * (j 0).val = (j 0).val; omega
  | ⟨1, _⟩ => show win0_0.index t (1 : Fin 2) * 1024 + 1 * (j 1).val = (j 1).val; omega

theorem iblk1_eq (c : Dev nD) (t : Fin cfg0.N) : iblk m c 1 t = V m c main_arg1 := by
  obtain ⟨-, -, e0, e1, -⟩ := idx_facts t
  funext j
  show V m c main_arg1 (((cfg0.win 1).blk t).view.emb j) = V m c main_arg1 j
  congr 1
  funext a; apply Fin.ext
  match a with
  | ⟨0, _⟩ => show win0_1.index t (0 : Fin 2) * 256 + 1 * (j 0).val = (j 0).val; omega
  | ⟨1, _⟩ => show win0_1.index t (1 : Fin 2) * 1024 + 1 * (j 1).val = (j 1).val; omega

/-- The one point's block of a [1, 1] result array is the array. -/
theorem emb2_eq (t : Fin cfg0.N) (j : S1x1.Idx) : ((cfg0.win 2).blk t).view.emb j = j := by
  obtain ⟨-, -, -, -, e0, e1, -⟩ := idx_facts t
  funext a; apply Fin.ext
  match a with
  | ⟨0, _⟩ => show win0_2.index t (0 : Fin 2) * 1 + 1 * (j 0).val = (j 0).val; omega
  | ⟨1, _⟩ => show win0_2.index t (1 : Fin 2) * 1 + 1 * (j 1).val = (j 1).val; omega

theorem flushed2_eq (c : Dev nD) (t : Fin cfg0.N) :
    (dats m 0 c).flushed 2 t = ((cfg0.win 2).blk t).view.read (Elt F) (out0_2 (V m c main_arg0) (V m c main_arg1)) := by
  show (cfg0.win 2).cut (grid0.coords t) ((dats m 0 c).after 2 t) = _
  rw [after0_2, iblk0_eq, iblk1_eq]
  funext j
  show out0_2 (V m c main_arg0) (V m c main_arg1) j = out0_2 (V m c main_arg0) (V m c main_arg1) (((cfg0.win 2).blk t).view.emb j)
  rw [emb2_eq]

theorem mem_blk2 (t : Fin cfg0.N) (i : S1x1.Idx) : i ∈ ((cfg0.win 2).blk t).view.set := by
  obtain ⟨-, -, -, -, e0, e1, -⟩ := idx_facts t
  show i ∈ ((View.whole main_v0_0).slice (win0_2.rect t)).set
  rw [View.set_slice_whole, Rect.mem_set_unit]
  intro a
  match a with
  | ⟨0, _⟩ => show win0_2.index t (0 : Fin 2) * 1 ≤ (i 0).val ∧ (i 0).val < win0_2.index t (0 : Fin 2) * 1 + 1; have h : (i 0).val < 1 := (i 0).isLt; omega
  | ⟨1, _⟩ => show win0_2.index t (1 : Fin 2) * 1 ≤ (i 1).val ∧ (i 1).val < win0_2.index t (1 : Fin 2) * 1 + 1; have h : (i 1).val < 1 := (i 1).isLt; omega

theorem final2 (c : Dev nD) : (dats m 0 c).arrAt 2 cfg0.N = out0_2 (V m c main_arg0) (V m c main_arg1) :=
  (dats m 0 c).arrAt_eq_of_cover 2 _ (fun t _ => flushed2_eq m c t) (fun i => ⟨t0_0, flush0_2 t0_0, mem_blk2 t0_0 i⟩)

theorem emb3_eq (t : Fin cfg0.N) (j : S1x1.Idx) : ((cfg0.win 3).blk t).view.emb j = j := by
  obtain ⟨-, -, -, -, -, -, e0, e1, -⟩ := idx_facts t
  funext a; apply Fin.ext
  match a with
  | ⟨0, _⟩ => show win0_3.index t (0 : Fin 2) * 1 + 1 * (j 0).val = (j 0).val; omega
  | ⟨1, _⟩ => show win0_3.index t (1 : Fin 2) * 1 + 1 * (j 1).val = (j 1).val; omega

theorem flushed3_eq (c : Dev nD) (t : Fin cfg0.N) :
    (dats m 0 c).flushed 3 t = ((cfg0.win 3).blk t).view.read (Elt F) (out0_3 (V m c main_arg0) (V m c main_arg1)) := by
  show (cfg0.win 3).cut (grid0.coords t) ((dats m 0 c).after 3 t) = _
  rw [after0_3, iblk0_eq, iblk1_eq]
  funext j
  show out0_3 (V m c main_arg0) (V m c main_arg1) j = out0_3 (V m c main_arg0) (V m c main_arg1) (((cfg0.win 3).blk t).view.emb j)
  rw [emb3_eq]

theorem mem_blk3 (t : Fin cfg0.N) (i : S1x1.Idx) : i ∈ ((cfg0.win 3).blk t).view.set := by
  obtain ⟨-, -, -, -, -, -, e0, e1, -⟩ := idx_facts t
  show i ∈ ((View.whole main_v0_1).slice (win0_3.rect t)).set
  rw [View.set_slice_whole, Rect.mem_set_unit]
  intro a
  match a with
  | ⟨0, _⟩ => show win0_3.index t (0 : Fin 2) * 1 ≤ (i 0).val ∧ (i 0).val < win0_3.index t (0 : Fin 2) * 1 + 1; have h : (i 0).val < 1 := (i 0).isLt; omega
  | ⟨1, _⟩ => show win0_3.index t (1 : Fin 2) * 1 ≤ (i 1).val ∧ (i 1).val < win0_3.index t (1 : Fin 2) * 1 + 1; have h : (i 1).val < 1 := (i 1).isLt; omega

theorem final3 (c : Dev nD) : (dats m 0 c).arrAt 3 cfg0.N = out0_3 (V m c main_arg0) (V m c main_arg1) :=
  (dats m 0 c).arrAt_eq_of_cover 3 _ (fun t _ => flushed3_eq m c t) (fun i => ⟨t0_0, flush0_3 t0_0, mem_blk3 t0_0 i⟩)

theorem emb4_eq (t : Fin cfg0.N) (j : S1x1.Idx) : ((cfg0.win 4).blk t).view.emb j = j := by
  obtain ⟨-, -, -, -, -, -, -, -, e0, e1⟩ := idx_facts t
  funext a; apply Fin.ext
  match a with
  | ⟨0, _⟩ => show win0_4.index t (0 : Fin 2) * 1 + 1 * (j 0).val = (j 0).val; omega
  | ⟨1, _⟩ => show win0_4.index t (1 : Fin 2) * 1 + 1 * (j 1).val = (j 1).val; omega

theorem flushed4_eq (c : Dev nD) (t : Fin cfg0.N) :
    (dats m 0 c).flushed 4 t = ((cfg0.win 4).blk t).view.read (Elt F) (out0_4 (V m c main_arg0) (V m c main_arg1)) := by
  show (cfg0.win 4).cut (grid0.coords t) ((dats m 0 c).after 4 t) = _
  rw [after0_4, iblk0_eq, iblk1_eq]
  funext j
  show out0_4 (V m c main_arg0) (V m c main_arg1) j = out0_4 (V m c main_arg0) (V m c main_arg1) (((cfg0.win 4).blk t).view.emb j)
  rw [emb4_eq]

theorem mem_blk4 (t : Fin cfg0.N) (i : S1x1.Idx) : i ∈ ((cfg0.win 4).blk t).view.set := by
  obtain ⟨-, -, -, -, -, -, -, -, e0, e1⟩ := idx_facts t
  show i ∈ ((View.whole main_v0_2).slice (win0_4.rect t)).set
  rw [View.set_slice_whole, Rect.mem_set_unit]
  intro a
  match a with
  | ⟨0, _⟩ => show win0_4.index t (0 : Fin 2) * 1 ≤ (i 0).val ∧ (i 0).val < win0_4.index t (0 : Fin 2) * 1 + 1; have h : (i 0).val < 1 := (i 0).isLt; omega
  | ⟨1, _⟩ => show win0_4.index t (1 : Fin 2) * 1 ≤ (i 1).val ∧ (i 1).val < win0_4.index t (1 : Fin 2) * 1 + 1; have h : (i 1).val < 1 := (i 1).isLt; omega

theorem final4 (c : Dev nD) : (dats m 0 c).arrAt 4 cfg0.N = out0_4 (V m c main_arg0) (V m c main_arg1) :=
  (dats m 0 c).arrAt_eq_of_cover 4 _ (fun t _ => flushed4_eq m c t) (fun i => ⟨t0_0, flush0_4 t0_0, mem_blk4 t0_0 i⟩)

/-- The host lines after the region as one function of the region's three results: the quotient of the first by the
    difference of the other two, 1 in place of a zero difference, as a [1] array. -/
def tail (a b d : FVec F S1x1 .f32) : FVec F S1 .f32 :=
  shapeCast S1 (Host.divf a (select (cmpf .oeq (subf b d) (broadcastInDim S1x1 ![] bcast_S_S1x1 (constant S_ .f32 0x00000000#32)))
    (broadcastInDim S1x1 ![] bcast_S_S1x1 (constant S_ .f32 0x3F800000#32)) (subf b d))) shapeCasts_S1x1_S1

theorem tail_eq (c : Dev nD) :
    Pipeline.afterTail₀ cfgs (dats m) 0 (V0 m) [hostOps1, hostOps1_1, hostOps1_2] c main_v6
      = tail ((dats m 0 c).arrAt 2 cfg0.N) ((dats m 0 c).arrAt 3 cfg0.N) ((dats m 0 c).arrAt 4 cfg0.N) := by
  have e2 := Pipeline.withArrays_arr (cfgs 0).spec launch0.win.arr_inj c (V0 m c) (fun w => (dats m 0 c).arrAt w (cfgs 0).N) 2
  have e3 := Pipeline.withArrays_arr (cfgs 0).spec launch0.win.arr_inj c (V0 m c) (fun w => (dats m 0 c).arrAt w (cfgs 0).N) 3
  have e4 := Pipeline.withArrays_arr (cfgs 0).spec launch0.win.arr_inj c (V0 m c) (fun w => (dats m 0 c).arrAt w (cfgs 0).N) 4
  unfold Pipeline.afterTail₀
  simp only [hostOps1, hostOps1_1, hostOps1_2, List.flatten_cons, List.flatten_nil, List.append_nil, List.cons_append, List.nil_append]
  after_results
  unfold tail
  rw [← e2, ← e3, ← e4]
  rfl

/-- The result buffer is no array of the pipeline: the frame run states it as the lines after the region leave it. -/
theorem result_mem_rest : main_v6 ∈ Pipeline.restRefs sig (cfgs 0).spec :=
  Pipeline.mem_restRefs_of main_v6 rfl (by decide)

/-- The program's result as a function of its two argument arrays: the host lines after the region applied to what the
    body's three stores hold, each a payload of the whole arrays (one grid point, every block the whole array). -/
def kernelResult (x0 : Vec F S256x1024 .f32) (x1 : Vec F S256x1024 .i32) : FVec F S1 .f32 :=
  tail (k0_pay1 (k0_pay12 x1) (k0_pay13 x1) (k0_pay14 x0 x1) (k0_pay15 x0 x1) (k0_pay16 x1) (k0_pay17 x1))
    (k0_pay2 (k0_pay6 x1)) (k0_pay3 (k0_pay7 x1))

theorem out3_eq (x0 : Vec F S256x1024 .f32) (x1 : Vec F S256x1024 .i32) : out0_3 x0 x1 = k0_pay2 (k0_pay6 x1) := by
  unfold out0_3
  rw [View.canon_unit_zero hz]
  simp only [View.ld_unit_zero (S := S256x1024) hz]

theorem out4_eq (x0 : Vec F S256x1024 .f32) (x1 : Vec F S256x1024 .i32) : out0_4 x0 x1 = k0_pay3 (k0_pay7 x1) := by
  unfold out0_4
  rw [View.canon_unit_zero hz]
  simp only [View.ld_unit_zero (S := S256x1024) hz]

/-- Every weakly fair execution ends with the result buffer at `kernelResult` of the argument arrays, which are unchanged. -/
theorem run : θ_run defs (onTc (τ := τ) (main (F := F))) ⟨m, fun _ => 0, ρ⟩ fun r => ∀ c : Dev nD,
      r.2.mem ((c.tc : Thread nD τ).loc main_v6)
        = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 result_mem_rest).trans ((tail_eq m c).trans (by
          rw [final2, final3, final4, out2_eq, out3_eq, out4_eq, V_main_arg0, V_main_arg1]; rfl)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.RankLoss.KernelRun

end
-- ==== Proof.RankLossSpec.lean ====
/-
  The pairwise margin ranking loss of a batch of label rows, in two forms over the real numbers.

  A row `i` has labels `b i j` (label `j` is positive) and scores `S i j`. A row counts when it has a
  positive and a negative label. For such a row every (positive `p`, negative `n`) pair whose margin
  `S i n - S i p + 1` is non-negative is ACTIVE, and the row's loss is

      ( -∑ₚ P p · S p  +  ∑ₙ N n · S n  +  L ) / ln

  with `P p` the number of active pairs of `p`, `N n` of `n`, `L` their total and `ln` the number of
  positives that have an active pair (1 when there is none). The batch's loss is the sum of the rows'
  losses over the number of rows with a positive minus the number with only positives (1 when zero).

  `pairwiseLoss` is that definition word for word. `closedLoss` is what it collapses to when every margin
  is non-negative — the case for scores in [0, 1] —: then the active pairs are all pairs, so that
  `P p = [p positive] · #negatives`, `N n = [n negative] · #positives`, `L = #positives · #negatives` and
  `ln = #positives`, and only per-row counts and two per-row sums of scores are left. `C` is the row's length
  as a real number (a row is all-positive when its count of positives reaches `C`).

  This file holds the definitions only; that the two agree is `Proof/PairwiseCollapse.lean`.
-/
import Idealize.ShloMosaic.PureOps.Ideal

noncomputable section

namespace Cert.RankLoss

open scoped BigOperators

/-- The indicator of a proposition as a real number. -/
def ind (p : Prop) : ℝ := by classical exact if p then 1 else 0

theorem ind_of_pos {p : Prop} (h : p) : ind p = 1 := by unfold ind; rw [if_pos h]
theorem ind_of_neg {p : Prop} (h : ¬p) : ind p = 0 := by unfold ind; rw [if_neg h]
/-- An `if` of 1 and 0 under any decision procedure is the indicator. -/
theorem ite_eq_ind (p : Prop) [Decidable p] : (if p then (1 : ℝ) else 0) = ind p := by
  by_cases h : p
  · rw [if_pos h, ind_of_pos h]
  · rw [if_neg h, ind_of_neg h]
theorem ind_congr {p q : Prop} (h : p ↔ q) : ind p = ind q := by rw [propext h]
/-- The number of elements with a property is the sum of its indicators. -/
theorem card_filter_eq_sum_ind {α : Type} [Fintype α] (p : α → Prop) [DecidablePred p] :
    ((Finset.univ.filter p).card : ℝ) = ∑ a, ind (p a) := by
  rw [Finset.card_filter, Nat.cast_sum]
  exact Finset.sum_congr rfl fun a _ => by rw [← ite_eq_ind (p a)]; split <;> simp

variable {ι κ : Type} [Fintype ι] [Fintype κ]

/-! ## The closed form: per-row counts and sums -/

section Closed
variable (b : ι → κ → Prop) (S : ι → κ → ℝ) (C : ℝ)

/-- The number of positive labels of row `i`. -/
def rowCount (i : ι) : ℝ := ∑ j, ind (b i j)
/-- 1 when row `i` has a positive label. -/
def anyRow (i : ι) : ℝ := ind (0 < rowCount b i)
/-- 1 when every label of row `i` is positive. -/
def allRow (i : ι) : ℝ := ind (C ≤ rowCount b i)
/-- 1 when row `i` counts: it has a positive and a negative label. -/
def validRow (i : ι) : ℝ := anyRow b i * (1 - allRow b C i)
/-- 1 at the positive labels of a row that counts. -/
def posW (i : ι) (j : κ) : ℝ := ind (b i j) * validRow b C i
/-- 1 at the negative labels of a row that counts. -/
def negW (i : ι) (j : κ) : ℝ := (1 - ind (b i j)) * validRow b C i
def nPos (i : ι) : ℝ := ∑ j, posW b C i j
def nNeg (i : ι) : ℝ := ∑ j, negW b C i j
def sumPos (i : ι) : ℝ := ∑ j, posW b C i j * S i j
def sumNeg (i : ι) : ℝ := ∑ j, negW b C i j * S i j
/-- The row's normalizer: its number of positives, 1 for a row that does not count. -/
def lnClosed (i : ι) : ℝ := if nPos b C i = 0 then 1 else nPos b C i
/-- The row's loss in closed form. -/
def rowLossClosed (i : ι) : ℝ :=
  ((0 - nNeg b C i) * sumPos b S C i + nPos b C i * sumNeg b S C i + 1 * nPos b C i * nNeg b C i) / lnClosed b C i
/-- Rows with a positive minus rows with only positives. -/
def bnClosed : ℝ := (∑ i, anyRow b i) - ∑ i, allRow b C i
/-- The batch's loss in closed form. -/
def closedLoss : ℝ := (∑ i, rowLossClosed b S C i) / (if bnClosed b C = 0 then 1 else bnClosed b C)

end Closed

/-! ## The pairwise form: every (positive, negative) pair of a row -/

section Pairwise
variable (b : ι → κ → Prop) (S : ι → κ → ℝ)

def anyB (i : ι) : Prop := ∃ j, b i j
def allB (i : ι) : Prop := ∀ j, b i j
def validB (i : ι) : Prop := anyB b i ∧ ¬allB b i
def posB (i : ι) (p : κ) : Prop := b i p ∧ validB b i
def negB (i : ι) (n : κ) : Prop := ¬b i n ∧ validB b i
/-- 1 when (`p`, `n`) is an active pair of row `i`. -/
def active (i : ι) (p n : κ) : ℝ := ind ((posB b i p ∧ negB b i n) ∧ 0 ≤ S i n - S i p + 1)
def pairsOfPos (i : ι) (p : κ) : ℝ := ∑ n, active b S i p n
def pairsOfNeg (i : ι) (n : κ) : ℝ := ∑ p, active b S i p n
def pairsTotal (i : ι) : ℝ := ∑ p, ∑ n, active b S i p n
/-- The number of positives with an active pair. -/
def lnCount (i : ι) : ℝ := ∑ p, ind (pairsOfPos b S i p ≠ 0)
def lnPairwise (i : ι) : ℝ := if lnCount b S i = 0 then 1 else lnCount b S i
def rowLossPairwise (i : ι) : ℝ :=
  (-(∑ p, pairsOfPos b S i p * S i p) + ∑ n, pairsOfNeg b S i n * S i n + 1 * pairsTotal b S i) / lnPairwise b S i
def bnPairwise : ℝ := (∑ i, ind (anyB b i)) - ∑ i, ind (allB b i)
def pairwiseLoss : ℝ := (∑ i, rowLossPairwise b S i) / (if bnPairwise b = 0 then 1 else bnPairwise b)

end Pairwise

end Cert.RankLoss

end
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.KernelPayloads.lean ====
/-
  What the kernel's three stores hold, for real logits: the sum over the rows of the closed-form row loss, the
  number of rows with a positive label, and the number of rows with only positive labels.

  Each intermediate value of the kernel body is read at an index (row `i`, column `j`) as the embedding of a real
  number: the label's indicator, the row's count of positives, the row's two flags, its weights, its counts and
  sums of scores, its normalizer. The three stored values are then sums over the rows of such columns.
-/
import proofs.«412084_j59390807769109_3_alg».proof.Proof.Gen.KernelIdeal.Skeleton
import proofs.«412084_j59390807769109_3_alg».proof.Proof.RankLossSpec
import proofs.«412084_j59390807769109_3_alg».proof.Proof.RankLossInputs
import proofs.«412084_j59390807769109_3_alg».proof.Proof.LibIdealReal
import Idealize.ShloMosaic.Lib.ValueIdx
import Idealize.ShloMosaic.Lib.Pipeline.Value
import Idealize.ShloMosaic.Lib.ValueLayout
import Idealize.ShloMosaic.PureOps.Ideal.Laws

noncomputable section

namespace Cert.RankLoss.KernelPayloads

open Idealize.ShloMosaic Idealize.ShloMosaic.ValueIdx Cert.KernelIdeal Cert.KernelIdeal.Gen Cert.RankLoss
open scoped BigOperators

section Layout
variable {α : Type}

/-- The source index over row `i` with column `k`. -/
theorem lift_row (h : S256x1024.Reduces [1] S256) (i : Fin 256) (k : Fin 1024) :
    h.lift (ix1 i) k = ix2 i k := by
  funext c
  match c with
  | ⟨0, _⟩ => exact Fin.ext rfl
  | ⟨1, _⟩ => exact Fin.ext rfl

/-- A sum over the columns, read at a row. -/
theorem rowSum_apply (src : FVec Ideal S256x1024 .f32) (h : S256x1024.Reduces [1] S256) (hφ : FKind.Formats .f32)
    (hacc : (0x00000000#32 : BitVec 32) = FKind.add.neutral .f32 hφ) (i : Fin 256) :
    multiReduction (F := Ideal) .add [1] S256 src 0x00000000#32 h hφ hacc (ix1 i) = ∑ k : Fin 1024, src (ix2 i k) := by
  refine (Ideal.multiReduction_add_single src _ h hφ hacc (ix1 i)).trans ?_
  exact Finset.sum_congr rfl fun k _ => congrArg src (lift_row h i k)

/-- A vector of rows cast to one column reads the row. -/
theorem shapeCast_col (x : S256.Idx → α) (h : S256.ShapeCasts S256x1) (i : Fin 256) (u : Fin 1) :
    shapeCast S256x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

section Layout2
variable {α : Type}

/-- The source index over the one result index with row `k`. -/
theorem lift_col (h : S256x1.Reduces [0] S1) (u : Fin 1) (k : Fin 256) :
    h.lift (ix1 u) k = ix2 k u := by
  funext c
  match c with
  | ⟨0, _⟩ => exact Fin.ext rfl
  | ⟨1, _⟩ => exact Fin.ext rfl

/-- A sum over the rows of a column. -/
theorem colSum_apply (src : FVec Ideal S256x1 .f32) (h : S256x1.Reduces [0] S1) (hφ : FKind.Formats .f32)
    (hacc : (0x00000000#32 : BitVec 32) = FKind.add.neutral .f32 hφ) (u : Fin 1) :
    multiReduction (F := Ideal) .add [0] S1 src 0x00000000#32 h hφ hacc (ix1 u) = ∑ k : Fin 256, src (ix2 k u) := by
  refine (Ideal.multiReduction_add_single src _ h hφ hacc (ix1 u)).trans ?_
  exact Finset.sum_congr rfl fun k _ => congrArg src (lift_col h u k)

/-- A column broadcast along the rows reads the column at the row. -/
theorem broadcastTo_col (x : S256x1.Idx → α) (h : S256x1.Broadcasts S256x1024) (i : Fin 256) (j : Fin 1024) :
    broadcastTo S256x1024 x h (ix2 i j) = x (ix2 i (0 : Fin 1)) := by
  refine broadcastTo_apply x h (ix2 i j) (ix2 i (0 : Fin 1)) fun ax => ?_
  match ax with
  | ⟨0, _⟩ => rfl
  | ⟨1, _⟩ => rfl

end Layout2

/-- The label bit, widened and read as a signed integer, is the indicator of a positive label. -/
theorem pay4_apply (g : Vec Ideal S256x1024 .i32) (i : Fin 256) (j : Fin 1024) :
    k0_pay4 (F := Ideal) g (ix2 i j) = ((ind (labelIs g i j) : ℝ) : EReal) := by
  unfold k0_pay4
  show FloatOps.sitofp (F := Ideal) .f32 ((BitVec.ofBool (g (ix2 i j) == 1#32)).setWidth 32) = _
  rw [IdealReal.sitofp_setWidth_ofBool]
  congr 1
  unfold labelIs
  by_cases h : g (ix2 i j) = 1#32
  · rw [ind_of_pos h, if_pos (by simpa using h)]
  · rw [ind_of_neg h, if_neg (by simpa using h)]

/-- The row's count of positive labels. -/
theorem pay5_apply (g : Vec Ideal S256x1024 .i32) (i : Fin 256) (u : Fin 1) :
    k0_pay5 (F := Ideal) g (ix2 i u) = ((rowCount (labelIs g) i : ℝ) : EReal) := by
  unfold k0_pay5
  rw [shapeCast_col]
  refine (rowSum_apply _ _ _ _ i).trans ?_
  unfold rowCount
  rw [IdealReal.coe_sum]
  exact Finset.sum_congr rfl fun k _ => pay4_apply g i k

/-- 1 when the row has a positive label. -/
theorem pay6_apply (g : Vec Ideal S256x1024 .i32) (i : Fin 256) (u : Fin 1) :
    k0_pay6 (F := Ideal) g (ix2 i u) = ((anyRow (labelIs g) i : ℝ) : EReal) := by
  unfold k0_pay6
  show FloatOps.sitofp (F := Ideal) .f32
    ((Ideal.cmp .ogt (k0_pay5 (F := Ideal) g (ix2 i u)) (Ideal.ofBits .f32 0x00000000#32)).setWidth 32) = _
  rw [pay5_apply, IdealReal.ofBits_zero_f32, IdealReal.cmp_ogt_coe, IdealReal.sitofp_setWidth_ofBool]
  congr 1
  unfold anyRow
  simp only [decide_eq_true_eq]
  exact ite_eq_ind _

/-- 1 when every label of the row is positive. -/
theorem pay7_apply (g : Vec Ideal S256x1024 .i32) (i : Fin 256) (u : Fin 1) :
    k0_pay7 (F := Ideal) g (ix2 i u) = ((allRow (labelIs g) 1024 i : ℝ) : EReal) := by
  unfold k0_pay7
  show FloatOps.sitofp (F := Ideal) .f32
    ((Ideal.cmp .oge (k0_pay5 (F := Ideal) g (ix2 i u)) (Ideal.ofBits .f32 0x44800000#32)).setWidth 32) = _
  rw [pay5_apply, IdealReal.ofBits_1024_f32, IdealReal.cmp_oge_coe, IdealReal.sitofp_setWidth_ofBool]
  congr 1
  unfold allRow
  simp only [decide_eq_true_eq]
  exact ite_eq_ind _

/-- 1 when the row counts. -/
theorem pay8_apply (g : Vec Ideal S256x1024 .i32) (i : Fin 256) (u : Fin 1) :
    k0_pay8 (F := Ideal) g (ix2 i u) = ((validRow (labelIs g) 1024 i : ℝ) : EReal) := by
  unfold k0_pay8
  show k0_pay6 (F := Ideal) g (ix2 i u) * (Ideal.ofBits .f32 0x3F800000#32 - k0_pay7 (F := Ideal) g (ix2 i u)) = _
  rw [pay6_apply, pay7_apply, IdealReal.ofBits_one_f32, ← EReal.coe_sub, ← EReal.coe_mul]
  rfl

/-- The score of an entry. -/
theorem pay9_apply (X : Arr.Idx → ℝ) (i : Fin 256) (j : Fin 1024) :
    k0_pay9 (F := Ideal) (asFloat X) (ix2 i j) = ((score X i j : ℝ) : EReal) := by
  unfold k0_pay9
  show Ideal.logistic (asFloat X (ix2 i j)) = _
  unfold asFloat score
  exact IdealReal.logistic_coe _

/-- 1 at the positive labels of a row that counts. -/
theorem pay10_apply (g : Vec Ideal S256x1024 .i32) (i : Fin 256) (j : Fin 1024) :
    k0_pay10 (F := Ideal) g (ix2 i j) = ((posW (labelIs g) 1024 i j : ℝ) : EReal) := by
  unfold k0_pay10
  rw [mulf_apply, broadcastTo_col, pay4_apply, pay8_apply, ← EReal.coe_mul]
  rfl

/-- 1 at the negative labels of a row that counts. -/
theorem pay11_apply (g : Vec Ideal S256x1024 .i32) (i : Fin 256) (j : Fin 1024) :
    k0_pay11 (F := Ideal) g (ix2 i j) = ((negW (labelIs g) 1024 i j : ℝ) : EReal) := by
  unfold k0_pay11
  rw [mulf_apply, broadcastTo_col, pay8_apply]
  show (Ideal.ofBits .f32 0x3F800000#32 - k0_pay4 (F := Ideal) g (ix2 i j)) * _ = _
  rw [pay4_apply, IdealReal.ofBits_one_f32, ← EReal.coe_sub, ← EReal.coe_mul]
  rfl

/-- The row's number of counted positives. -/
theorem pay12_apply (g : Vec Ideal S256x1024 .i32) (i : Fin 256) (u : Fin 1) :
    k0_pay12 (F := Ideal) g (ix2 i u) = ((nPos (labelIs g) 1024 i : ℝ) : EReal) := by
  unfold k0_pay12
  rw [shapeCast_col]
  refine (rowSum_apply _ _ _ _ i).trans ?_
  unfold nPos
  rw [IdealReal.coe_sum]
  exact Finset.sum_congr rfl fun k _ => pay10_apply g i k

/-- The row's number of counted negatives. -/
theorem pay13_apply (g : Vec Ideal S256x1024 .i32) (i : Fin 256) (u : Fin 1) :
    k0_pay13 (F := Ideal) g (ix2 i u) = ((nNeg (labelIs g) 1024 i : ℝ) : EReal) := by
  unfold k0_pay13
  rw [shapeCast_col]
  refine (rowSum_apply _ _ _ _ i).trans ?_
  unfold nNeg
  rw [IdealReal.coe_sum]
  exact Finset.sum_congr rfl fun k _ => pay11_apply g i k

/-- The row's sum of scores over its counted positives. -/
theorem pay14_apply (X : Arr.Idx → ℝ) (g : Vec Ideal S256x1024 .i32) (i : Fin 256) (u : Fin 1) :
    k0_pay14 (F := Ideal) (asFloat X) g (ix2 i u) = ((sumPos (labelIs g) (score X) 1024 i : ℝ) : EReal) := by
  unfold k0_pay14
  rw [shapeCast_col]
  refine (rowSum_apply _ _ _ _ i).trans ?_
  unfold sumPos
  rw [IdealReal.coe_sum]
  refine Finset.sum_congr rfl fun k _ => ?_
  rw [mulf_apply, pay10_apply, pay9_apply, ← EReal.coe_mul]

/-- The row's sum of scores over its counted negatives. -/
theorem pay15_apply (X : Arr.Idx → ℝ) (g : Vec Ideal S256x1024 .i32) (i : Fin 256) (u : Fin 1) :
    k0_pay15 (F := Ideal) (asFloat X) g (ix2 i u) = ((sumNeg (labelIs g) (score X) 1024 i : ℝ) : EReal) := by
  unfold k0_pay15
  rw [shapeCast_col]
  refine (rowSum_apply _ _ _ _ i).trans ?_
  unfold sumNeg
  rw [IdealReal.coe_sum]
  refine Finset.sum_congr rfl fun k _ => ?_
  rw [mulf_apply, pay11_apply, pay9_apply, ← EReal.coe_mul]

/-- The row's normalizer. -/
theorem pay16_apply (g : Vec Ideal S256x1024 .i32) (i : Fin 256) (u : Fin 1) :
    k0_pay16 (F := Ideal) g (ix2 i u) = ((lnClosed (labelIs g) 1024 i : ℝ) : EReal) := by
  unfold k0_pay16
  show Scalar.select (Ideal.cmp .oeq (k0_pay12 (F := Ideal) g (ix2 i u)) (Ideal.ofBits .f32 0x00000000#32))
    (Ideal.ofBits .f32 0x3F800000#32) (k0_pay12 (F := Ideal) g (ix2 i u)) = _
  rw [pay12_apply, IdealReal.ofBits_zero_f32, IdealReal.cmp_oeq_coe, IdealReal.select_ofBool, IdealReal.ofBits_one_f32]
  unfold lnClosed
  by_cases h : nPos (labelIs g) 1024 i = 0
  · rw [if_pos h, if_pos (decide_eq_true h)]
  · rw [if_neg h, if_neg (by simpa using h)]

/-- The margin times the row's number of counted positives. -/
theorem pay17_apply (g : Vec Ideal S256x1024 .i32) (i : Fin 256) (u : Fin 1) :
    k0_pay17 (F := Ideal) g (ix2 i u) = ((1 * nPos (labelIs g) 1024 i : ℝ) : EReal) := by
  unfold k0_pay17
  show Ideal.ofBits .f32 0x3F800000#32 * k0_pay12 (F := Ideal) g (ix2 i u) = _
  rw [pay12_apply, IdealReal.ofBits_one_f32, ← EReal.coe_mul]

/-- The normalizer is never zero. -/
theorem lnClosed_ne_zero {ι κ : Type} [Fintype ι] [Fintype κ] (b : ι → κ → Prop) (C : ℝ) (i : ι) : lnClosed b C i ≠ 0 := by
  unfold lnClosed
  by_cases h : nPos b C i = 0
  · rw [if_pos h]; exact one_ne_zero
  · rw [if_neg h]; exact h

/-- A column of real numbers summed over its rows, read at the one index of the [1, 1] result. -/
theorem total_apply (v : FVec Ideal S256x1 .f32) (f : Fin 256 → ℝ) (hv : ∀ (i : Fin 256) (u : Fin 1), v (ix2 i u) = ((f i : ℝ) : EReal))
    (h : S256x1.Reduces [0] S1) (hφ : FKind.Formats .f32) (hacc : (0x00000000#32 : BitVec 32) = FKind.add.neutral .f32 hφ)
    (hc : S1.ShapeCasts S1x1) (y : S1x1.Idx) :
    shapeCast S1x1 (multiReduction (F := Ideal) .add [0] S1 v 0x00000000#32 h hφ hacc) hc y = ((∑ i, f i : ℝ) : EReal) := by
  obtain ⟨p, q, rfl⟩ : ∃ (p : Fin 1) (q : Fin 1), y = ix2 p q := ⟨y 0, y 1, eq_ix2 y⟩
  rw [shapeCast_a_1a_apply]
  refine (colSum_apply v h hφ hacc q).trans ?_
  rw [IdealReal.coe_sum]
  exact Finset.sum_congr rfl fun k _ => hv k q

/-- The first store: the rows' closed-form losses summed. -/
theorem loss_payload (X : Arr.Idx → ℝ) (g : Vec Ideal S256x1024 .i32) :
    k0_pay1 (F := Ideal) (k0_pay12 g) (k0_pay13 g) (k0_pay14 (asFloat X) g) (k0_pay15 (asFloat X) g) (k0_pay16 g) (k0_pay17 g)
      = fun _ => ((∑ i, rowLossClosed (labelIs g) (score X) 1024 i : ℝ) : EReal) := by
  funext y
  unfold k0_pay1
  refine total_apply _ (fun i => rowLossClosed (labelIs g) (score X) 1024 i) (fun i u => ?_) _ _ _ _ y
  show Ideal.div
      (((Ideal.ofBits .f32 0x00000000#32 - k0_pay13 (F := Ideal) g (ix2 i u)) * k0_pay14 (F := Ideal) (asFloat X) g (ix2 i u)
          + k0_pay12 (F := Ideal) g (ix2 i u) * k0_pay15 (F := Ideal) (asFloat X) g (ix2 i u))
        + k0_pay17 (F := Ideal) g (ix2 i u) * k0_pay13 (F := Ideal) g (ix2 i u))
      (k0_pay16 (F := Ideal) g (ix2 i u)) = _
  rw [pay12_apply, pay13_apply, pay14_apply, pay15_apply, pay16_apply, pay17_apply, IdealReal.ofBits_zero_f32,
    ← EReal.coe_sub, ← EReal.coe_mul, ← EReal.coe_mul, ← EReal.coe_mul, ← EReal.coe_add, ← EReal.coe_add,
    IdealReal.div_coe_coe _ _ (lnClosed_ne_zero _ _ _)]
  rfl

/-- The second store: the number of rows with a positive label. -/
theorem any_payload (g : Vec Ideal S256x1024 .i32) :
    k0_pay2 (F := Ideal) (k0_pay6 g) = fun _ => ((∑ i, anyRow (labelIs g) i : ℝ) : EReal) := by
  funext y
  unfold k0_pay2
  exact total_apply _ (fun i => anyRow (labelIs g) i) (fun i u => pay6_apply g i u) _ _ _ _ y

/-- The third store: the number of rows whose labels are all positive. -/
theorem all_payload (g : Vec Ideal S256x1024 .i32) :
    k0_pay3 (F := Ideal) (k0_pay7 g) = fun _ => ((∑ i, allRow (labelIs g) 1024 i : ℝ) : EReal) := by
  funext y
  unfold k0_pay3
  exact total_apply _ (fun i => allRow (labelIs g) 1024 i) (fun i u => pay7_apply g i u) _ _ _ _ y

end Cert.RankLoss.KernelPayloads

end
-- ==== Proof.KernelValue.lean ====
/-
  The kernel's result for real logits: the closed form of the loss. The body's three stores hold the sum of the rows'
  closed-form losses, the number of rows with a positive label and the number with only positive labels; the host
  lines divide the first by the difference of the other two, 1 in place of a zero difference — the batch normalizer.
-/
import proofs.«412084_j59390807769109_3_alg».proof.Proof.KernelRun
import proofs.«412084_j59390807769109_3_alg».proof.Proof.KernelPayloads

noncomputable section

namespace Cert.RankLoss.KernelValue

open Idealize.ShloMosaic Cert.KernelIdeal Cert.KernelIdeal.Gen Cert.RankLoss
open scoped BigOperators

/-- An `if` between two embedded reals is the embedded `if`. -/
theorem ite_coe (p : Prop) [Decidable p] (a b : ℝ) : (if p then (a : EReal) else (b : EReal)) = ((if p then a else b : ℝ) : EReal) := by
  split <;> rfl

theorem kernel_value (X : Arr.Idx → ℝ) (g : Vec Ideal S256x1024 .i32) :
    KernelRun.kernelResult (F := Ideal) (asFloat X) g = fun _ => ((closedLoss (labelIs g) (score X) 1024 : ℝ) : EReal) := by
  unfold KernelRun.kernelResult
  rw [KernelPayloads.loss_payload, KernelPayloads.any_payload, KernelPayloads.all_payload]
  unfold KernelRun.tail shapeCast
  funext j
  show Ideal.div ((∑ i, rowLossClosed (labelIs g) (score X) 1024 i : ℝ) : EReal)
      (Scalar.select (Ideal.cmp .oeq (((∑ i, anyRow (labelIs g) i : ℝ) : EReal) - ((∑ i, allRow (labelIs g) 1024 i : ℝ) : EReal)) (Ideal.ofBits .f32 0x00000000#32))
        (Ideal.ofBits .f32 0x3F800000#32)
        (((∑ i, anyRow (labelIs g) i : ℝ) : EReal) - ((∑ i, allRow (labelIs g) 1024 i : ℝ) : EReal))) = _
  rw [← EReal.coe_sub, IdealReal.ofBits_zero_f32, IdealReal.cmp_oeq_coe, IdealReal.select_ofBool, IdealReal.ofBits_one_f32]
  simp only [decide_eq_true_eq]
  rw [ite_coe, IdealReal.div_coe_coe _ _ (by split <;> [exact one_ne_zero; assumption])]
  rfl

end Cert.RankLoss.KernelValue

end
-- ==== Proof.ReferenceLabels.lean ====
/-
  The label side of the reference, stage by stage: which labels are positive, which rows count, the positive and the
  negative labels of the rows that count, the logits' scores, and the batch normalizer — each read at an index as the
  quantity of the loss's definition it is.
-/
import proofs.«412084_j59390807769109_3_alg».proof.Proof.ReferenceRead
import proofs.«412084_j59390807769109_3_alg».proof.Proof.RankLossSpec
import proofs.«412084_j59390807769109_3_alg».proof.Proof.RankLossInputs
import proofs.«412084_j59390807769109_3_alg».proof.Proof.LibIdealReal
import Idealize.ShloMosaic.Lib.ValueIdx
import Idealize.ShloMosaic.Lib.ValueIdxRank1
import Idealize.ShloMosaic.Lib.IdealHost
import Idealize.ShloMosaic.Lib.StableHlo.Predicate
import Idealize.ShloMosaic.PureOps.Ideal.Laws

noncomputable section

namespace Cert.RankLoss.ReferenceLabels

open Idealize.ShloMosaic Cert.ReferenceIdeal Cert.ReferenceIdeal.Gen Cert.ReferenceIdeal.ReadP Cert.RankLoss
open scoped BigOperators

/-- The reference's sigmoid of a real logit, `1 / (1 + e^(-x))` by its four host operations, is the score. -/
theorem score_stage (X : Arr.Idx → ℝ) (i : Fin 256) (j : Fin 1024) :
    val_main_v5 (F := Ideal) (asFloat X) (ValueIdx.ix2 i j) = ((score X i j : ℝ) : EReal) := by
  rw [val_main_v5_apply, val_main_v4_apply, val_main_cst_0_apply, val_main_v3_apply, val_main_v2_apply,
    val_main_cst_apply, val_main_v1_apply, val_main_v0_apply]
  show Ideal.div (Ideal.ofBits .f32 0x3F800000#32)
      (Ideal.ofBits .f32 0x3F800000#32 + Ideal.exp (-((X (ValueIdx.ix2 i j) : ℝ) : EReal))) = _
  rw [IdealReal.ofBits_one_f32, EReal.coe_one]
  exact IdealReal.logistic_coe (X (ValueIdx.ix2 i j))

/-- `target == 1` at (i, j): the label is positive. -/
theorem label_stage (g : IVec S256x1024 32) (i : Fin 256) (j : Fin 1024) :
    val_main_v7 (F := Ideal) g (ValueIdx.ix2 i j) = 1#1 ↔ labelIs g i j := by
  rw [val_main_v7_apply, val_main_v6_apply, val_main_c_apply]
  exact StableHlo.Predicate.cmpi_eq_iff

/-! ## One-bit words -/

theorem ori_eq_one {c d : BitVec 1} : IntOp.ori c d = 1#1 ↔ c = 1#1 ∨ d = 1#1 := by revert c d; decide
theorem andi_eq_one {c d : BitVec 1} : IntOp.andi c d = 1#1 ↔ c = 1#1 ∧ d = 1#1 := by revert c d; decide
theorem not_eq_one {c : BitVec 1} : ~~~c = 1#1 ↔ ¬c = 1#1 := by revert c; decide

/-- A fold of `or` is 1 exactly when it starts at 1 or meets a 1. -/
theorem fold_ori_eq_one {ι : Type} (s : Finset ι) (f : ι → BitVec 1) (init : BitVec 1) :
    s.fold IntOp.ori init f = 1#1 ↔ init = 1#1 ∨ ∃ a ∈ s, f a = 1#1 := by
  induction s using Finset.cons_induction with
  | empty => simp
  | cons a s ha ih =>
    rw [Finset.fold_cons, ori_eq_one, ih]
    constructor
    · rintro (h | h | ⟨b, hb, h⟩)
      · exact Or.inr ⟨a, Finset.mem_cons_self a s, h⟩
      · exact Or.inl h
      · exact Or.inr ⟨b, Finset.mem_cons.2 (Or.inr hb), h⟩
    · rintro (h | ⟨b, hb, h⟩)
      · exact Or.inr (Or.inl h)
      · rcases Finset.mem_cons.1 hb with rfl | hb
        · exact Or.inl h
        · exact Or.inr (Or.inr ⟨b, hb, h⟩)

/-- A fold of `and` is 1 exactly when it starts at 1 and meets only 1s. -/
theorem fold_andi_eq_one {ι : Type} (s : Finset ι) (f : ι → BitVec 1) (init : BitVec 1) :
    s.fold IntOp.andi init f = 1#1 ↔ init = 1#1 ∧ ∀ a ∈ s, f a = 1#1 := by
  induction s using Finset.cons_induction with
  | empty => simp
  | cons a s ha ih =>
    rw [Finset.fold_cons, andi_eq_one, ih]
    constructor
    · rintro ⟨h, hi, hs⟩
      exact ⟨hi, fun b hb => by
        rcases Finset.mem_cons.1 hb with rfl | hb
        · exact h
        · exact hs b hb⟩
    · rintro ⟨hi, hs⟩
      exact ⟨hs a (Finset.mem_cons_self a s), hi, fun b hb => hs b (Finset.mem_cons.2 (Or.inr hb))⟩

/-! ## A row's "any" and "all" -/

/-- The shape fact of a reduction over the columns. -/
theorem reduces_cols : S256x1024.Reduces [1] S256 := by decide

/-- Row `i` with column `k` inserted is the entry (i, k). -/
theorem lift_cols (i : Fin 256) (k : Fin 1024) :
    reduces_cols.lift (ValueIdx.ix1 i) k = ValueIdx.ix2 i k := by
  funext c
  match c with
  | ⟨0, _⟩ => exact Fin.ext rfl
  | ⟨1, _⟩ => exact Fin.ext rfl

/-- The label bit of row `i` read along its columns. -/
theorem label_lift (g : IVec S256x1024 32) (i : Fin 256) (k : Fin 1024) :
    (val_main_v7 (F := Ideal) g ∘ reduces_cols.lift (ValueIdx.ix1 i)) k = 1#1 ↔ labelIs g i k := by
  show val_main_v7 (F := Ideal) g (reduces_cols.lift (ValueIdx.ix1 i) k) = 1#1 ↔ _
  rw [lift_cols]; exact label_stage g i k

/-- The `or` over row `i` of the label bits: the row has a positive label. -/
theorem any_stage (g : IVec S256x1024 32) (i : Fin 256) :
    val_main_v8 (F := Ideal) g (ValueIdx.ix1 i) = 1#1 ↔ anyB (labelIs g) i := by
  unfold val_main_v8
  rw [Host.reduce_eq_fold_single IntOp.ori _ _ reducesTo_S256x1024_S256_d1 reduces_cols, fold_ori_eq_one]
  constructor
  · rintro (h | ⟨k, _, h⟩)
    · exact absurd h (by decide)
    · exact ⟨k, (label_lift g i k).1 h⟩
  · rintro ⟨k, hk⟩
    exact Or.inr ⟨k, Finset.mem_univ _, (label_lift g i k).2 hk⟩

/-- The `and` over row `i` of the label bits: every label of the row is positive. -/
theorem all_stage (g : IVec S256x1024 32) (i : Fin 256) :
    val_main_v9 (F := Ideal) g (ValueIdx.ix1 i) = 1#1 ↔ allB (labelIs g) i := by
  unfold val_main_v9
  rw [Host.reduce_eq_fold_single IntOp.andi _ _ reducesTo_S256x1024_S256_d1 reduces_cols, fold_andi_eq_one]
  constructor
  · rintro ⟨_, h⟩ k
    exact (label_lift g i k).1 (h k (Finset.mem_univ _))
  · intro h
    exact ⟨rfl, fun k _ => (label_lift g i k).2 (h k)⟩

/-! ## The rows that count, and their positive and negative labels -/

/-- `any & ~all` at row `i`: the row has a positive and a negative label. -/
theorem valid_stage (g : IVec S256x1024 32) (i : Fin 256) :
    val_main_v11 (F := Ideal) g (ValueIdx.ix1 i) = 1#1 ↔ validB (labelIs g) i := by
  rw [val_main_v11_apply, val_main_v10_apply, andi_eq_one, not_eq_one, any_stage, all_stage]
  exact Iff.rfl

/-- `tgt & valid[:, None]` at (i, p): a positive label of a row that counts. -/
theorem pos_stage (g : IVec S256x1024 32) (i : Fin 256) (p : Fin 1024) :
    val_main_v22 (F := Ideal) g (ValueIdx.ix2 i p) = 1#1 ↔ posB (labelIs g) i p := by
  have e : idx_main_v20 (idx_main_v21 (ValueIdx.ix2 i p)) = ValueIdx.ix1 i := by
    funext a; match a with | ⟨0, _⟩ => rfl
  rw [val_main_v22_apply, andi_eq_one, label_stage, val_main_v21_apply, val_main_v20_apply, e, valid_stage]
  exact Iff.rfl

/-- `~tgt & valid[:, None]` at (i, n): a negative label of a row that counts. -/
theorem neg_stage (g : IVec S256x1024 32) (i : Fin 256) (n : Fin 1024) :
    val_main_v26 (F := Ideal) g (ValueIdx.ix2 i n) = 1#1 ↔ negB (labelIs g) i n := by
  have e : idx_main_v24 (idx_main_v25 (ValueIdx.ix2 i n)) = ValueIdx.ix1 i := by
    funext a; match a with | ⟨0, _⟩ => rfl
  rw [val_main_v26_apply, andi_eq_one, val_main_v23_apply, not_eq_one, label_stage, val_main_v25_apply,
    val_main_v24_apply, e, valid_stage]
  exact Iff.rfl

/-! ## The batch normalizer -/

/-- The sum of a [256] vector of widened bits is the number of set bits: at most 256 ones, so nothing wraps. -/
theorem toNat_reduce_count (mask : IVec S256 1) (k : S_.Idx) :
    (Host.reduce IntOp.addi (extui 32 mask natLt_1_32) (constantI S_ 32 0#32) reducesTo_S256_S_d0 h_S_ k).toNat
      = (Finset.univ.filter (fun i : Fin 256 => mask (ValueIdx.ix1 i) = 1#1)).card := by
  classical
  rw [Host.reduce_eq_fold]
  have hall : (Finset.univ.filter fun i : S256.Idx => reducesTo_S256_S_d0.drop i = k) = Finset.univ :=
    Finset.filter_true_of_mem fun i _ => funext fun a => a.elim0
  rw [hall]
  have hsum : ∑ i : S256.Idx, (extui 32 mask natLt_1_32 i).toNat
      = (Finset.univ.filter (fun i : Fin 256 => mask (ValueIdx.ix1 i) = 1#1)).card := by
    rw [Finset.card_filter]
    refine ((Equiv.sum_comp (ValueIdx.idxEquiv1 (n := 256)).symm
      fun i => (extui 32 mask natLt_1_32 i).toNat).symm).trans ?_
    exact Finset.sum_congr rfl fun i _ => StableHlo.Predicate.toNat_setWidth_bit (mask (ValueIdx.ix1 i))
  show (Finset.fold IntOp.addi 0#32 (extui 32 mask natLt_1_32) Finset.univ).toNat = _
  rw [StableHlo.Predicate.toNat_fold_addi _ _
    (by rw [hsum]; exact lt_of_le_of_lt (Finset.card_le_univ _) (by simp)), hsum]

/-- The number of rows with a positive label, as a word's value … -/
theorem v13_toNat (g : IVec S256x1024 32) (k : S_.Idx) :
    (val_main_v13 (F := Ideal) g k).toNat
      = (Finset.univ.filter (fun i : Fin 256 => val_main_v8 (F := Ideal) g (ValueIdx.ix1 i) = 1#1)).card :=
  toNat_reduce_count (val_main_v8 (F := Ideal) g) k

/-- … and the number of rows with only positive labels. -/
theorem v15_toNat (g : IVec S256x1024 32) (k : S_.Idx) :
    (val_main_v15 (F := Ideal) g k).toNat
      = (Finset.univ.filter (fun i : Fin 256 => val_main_v9 (F := Ideal) g (ValueIdx.ix1 i) = 1#1)).card :=
  toNat_reduce_count (val_main_v9 (F := Ideal) g) k

theorem v13_le (g : IVec S256x1024 32) (k : S_.Idx) : (val_main_v13 (F := Ideal) g k).toNat ≤ 256 := by
  rw [v13_toNat]; exact le_trans (Finset.card_le_univ _) (by simp)

/-- A row of only positive labels has a positive label, its 1024 columns not being none. -/
theorem v15_le_v13 (g : IVec S256x1024 32) (k : S_.Idx) :
    (val_main_v15 (F := Ideal) g k).toNat ≤ (val_main_v13 (F := Ideal) g k).toNat := by
  rw [v13_toNat, v15_toNat]
  refine Finset.card_le_card fun i hi => ?_
  rw [Finset.mem_filter] at hi ⊢
  exact ⟨hi.1, (any_stage g i).2 ⟨0, (all_stage g i).1 hi.2 0⟩⟩

theorem v13_real (g : IVec S256x1024 32) (k : S_.Idx) :
    ((val_main_v13 (F := Ideal) g k).toNat : ℝ) = ∑ i, ind (anyB (labelIs g) i) := by
  rw [v13_toNat, card_filter_eq_sum_ind]
  exact Finset.sum_congr rfl fun i _ => ind_congr (any_stage g i)

theorem v15_real (g : IVec S256x1024 32) (k : S_.Idx) :
    ((val_main_v15 (F := Ideal) g k).toNat : ℝ) = ∑ i, ind (allB (labelIs g) i) := by
  rw [v15_toNat, card_filter_eq_sum_ind]
  exact Finset.sum_congr rfl fun i _ => ind_congr (all_stage g i)

/-- The difference of two small counts, 1 put in place of 0, read as a signed integer. -/
theorem norm_word (a c : BitVec 32) (hca : c.toNat ≤ a.toNat) (ha : a.toNat ≤ 256) :
    ((Scalar.select (IntOp.cmpi .eq (IntOp.subi a c) 0#32) 1#32 (IntOp.subi a c)).toInt : ℝ)
      = if (a.toNat : ℝ) - (c.toNat : ℝ) = 0 then 1 else (a.toNat : ℝ) - (c.toNat : ℝ) := by
  have hd : (IntOp.subi a c).toNat = a.toNat - c.toNat := by
    show (a - c).toNat = _
    rw [BitVec.toNat_sub]; omega
  have hr : (a.toNat : ℝ) - (c.toNat : ℝ) = ((a.toNat - c.toNat : ℕ) : ℝ) := (Nat.cast_sub hca).symm
  rw [hr]
  by_cases h0 : IntOp.subi a c = 0#32
  · have hz : a.toNat - c.toNat = 0 := by rw [← hd, h0]; rfl
    rw [h0, hz, Nat.cast_zero, if_pos rfl]
    show (((1#32 : BitVec 32).toInt : ℤ) : ℝ) = 1
    norm_num
  · have hc : IntOp.cmpi .eq (IntOp.subi a c) 0#32 = 0#1 :=
      ValueIdx.eq_zero_of_ne_one fun h => h0 (StableHlo.Predicate.cmpi_eq_iff.1 h)
    have hne : a.toNat - c.toNat ≠ 0 := fun h => h0 (BitVec.eq_of_toNat_eq (by rw [hd, h]; rfl))
    rw [hc, ValueIdx.select_zero, StableHlo.Predicate.toInt_eq_toNat_of_lt (by omega), hd,
      if_neg (Nat.cast_ne_zero.mpr hne)]
    norm_cast

/-- The batch normalizer as a float: rows with a positive minus rows with only positives, counted in 32-bit words
    (at most 256, so nothing wraps), 1 in place of 0, converted. -/
theorem bn_stage (g : IVec S256x1024 32) (k : S_.Idx) :
    val_main_v19 (F := Ideal) g k
      = (((if bnPairwise (labelIs g) = 0 then 1 else bnPairwise (labelIs g)) : ℝ) : EReal) := by
  rw [val_main_v19_apply, val_main_v18_apply, val_main_v17_apply, val_main_v16_apply, val_main_call0_v0_apply,
    val_main_c_6_apply, val_main_c_5_apply]
  show ((((Scalar.select (IntOp.cmpi .eq (IntOp.subi (val_main_v13 (F := Ideal) g k) (val_main_v15 (F := Ideal) g k)) 0#32)
    1#32 (IntOp.subi (val_main_v13 (F := Ideal) g k) (val_main_v15 (F := Ideal) g k))).toInt : ℝ)) : EReal) = _
  rw [norm_word _ _ (v15_le_v13 g k) (v13_le g k), v13_real, v15_real]
  rfl

end Cert.RankLoss.ReferenceLabels

end
-- ==== Proof.ReferencePairs.lean ====
/-
  The pair table of the reference: at (row i, positive p, negative n) of the [256, 1024, 1024] array, 1 when the pair is
  active — p a positive and n a negative label of a row that counts, the margin `s[n] - s[p] + 1` non-negative — and its
  three sums: over n (a positive's active pairs), over p (a negative's), over both (the row's).
-/
import proofs.«412084_j59390807769109_3_alg».proof.Proof.ReferenceLabels
import proofs.«412084_j59390807769109_3_alg».proof.Proof.RankLossSpec
import proofs.«412084_j59390807769109_3_alg».proof.Proof.RankLossInputs
import proofs.«412084_j59390807769109_3_alg».proof.Proof.LibIdealReal
import Idealize.ShloMosaic.Lib.ValueIdx
import Idealize.ShloMosaic.Lib.IdealHost
import Idealize.ShloMosaic.Lib.StableHlo.Predicate
import Idealize.ShloMosaic.PureOps.Ideal.Laws

noncomputable section

namespace Cert.RankLoss.ReferencePairs

open Idealize.ShloMosaic Cert.ReferenceIdeal Cert.ReferenceIdeal.Gen Cert.ReferenceIdeal.ReadP Cert.RankLoss
open Idealize.ShloMosaic.ValueIdx Cert.RankLoss.ReferenceLabels
open scoped BigOperators

/-! ## The margin test over the cube -/

/-- The score of column `n`, laid over the cube: entry (i, p, n) reads `s[i, n]`. -/
theorem v29_at (X : Arr.Idx → ℝ) (i : Fin 256) (p n : Fin 1024) :
    val_main_v29 (F := Ideal) (asFloat X) (ix3 i p n) = ((score X i n : ℝ) : EReal) := by
  rw [val_main_v29_apply, val_main_v27_apply]
  have h : idx_main_v27 (idx_main_v29 (ix3 i p n)) = ix2 i n := by
    funext a; match a with | ⟨0, _⟩ => rfl | ⟨1, _⟩ => rfl
  rw [h, score_stage]

/-- The score of column `p`, laid over the cube: entry (i, p, n) reads `s[i, p]`. -/
theorem v30_at (X : Arr.Idx → ℝ) (i : Fin 256) (p n : Fin 1024) :
    val_main_v30 (F := Ideal) (asFloat X) (ix3 i p n) = ((score X i p : ℝ) : EReal) := by
  rw [val_main_v30_apply, val_main_v28_apply]
  have h : idx_main_v28 (idx_main_v30 (ix3 i p n)) = ix2 i p := by
    funext a; match a with | ⟨0, _⟩ => rfl | ⟨1, _⟩ => rfl
  rw [h, score_stage]

/-- The margin test `s[n] - s[p] + 1 ≥ 0` at (i, p, n), decided over the reals. -/
theorem v35_at (X : Arr.Idx → ℝ) (i : Fin 256) (p n : Fin 1024) :
    val_main_v35 (F := Ideal) (asFloat X) (ix3 i p n)
      = BitVec.ofBool (decide (0 ≤ score X i n - score X i p + 1)) := by
  rw [val_main_v35_apply, val_main_v33_apply, val_main_v31_apply, v29_at, v30_at, val_main_v32_apply,
    val_main_v34_apply, val_main_cst_7_apply, val_main_cst_8_apply]
  show Ideal.cmp .oge (((score X i n : ℝ) : EReal) - ((score X i p : ℝ) : EReal) + Ideal.ofBits .f32 0x3F800000#32)
    (Ideal.ofBits .f32 0x00000000#32) = _
  rw [IdealReal.ofBits_one_f32, IdealReal.ofBits_zero_f32, ← EReal.coe_sub, ← EReal.coe_add, IdealReal.cmp_oge_coe]

/-! ## The two label masks over the cube -/

/-- "p is a positive of a row that counts", laid over the cube. -/
theorem v38_at (g : IVec S256x1024 32) (i : Fin 256) (p n : Fin 1024) :
    val_main_v38 (F := Ideal) g (ix3 i p n) = val_main_v22 (F := Ideal) g (ix2 i p) := by
  rw [val_main_v38_apply, val_main_v36_apply]
  exact congrArg _ (funext fun a => by match a with | ⟨0, _⟩ => rfl | ⟨1, _⟩ => rfl)

/-- "n is a negative of a row that counts", laid over the cube. -/
theorem v39_at (g : IVec S256x1024 32) (i : Fin 256) (p n : Fin 1024) :
    val_main_v39 (F := Ideal) g (ix3 i p n) = val_main_v26 (F := Ideal) g (ix2 i n) := by
  rw [val_main_v39_apply, val_main_v37_apply]
  exact congrArg _ (funext fun a => by match a with | ⟨0, _⟩ => rfl | ⟨1, _⟩ => rfl)

/-! ## The pair table -/

/-- The conjunction of two one-bit words is 1 exactly when both are. -/
theorem andi_eq_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- A one-bit word that is 1 exactly when a proposition holds, read as a float, is the proposition's indicator. -/
theorem uitofp_bit (x : BitVec 1) (P : Prop) (h : x = 1#1 ↔ P) :
    FloatOps.uitofp (F := Ideal) .f32 x = ((ind P : ℝ) : EReal) := by
  rcases BitVec.eq_zero_or_eq_one x with rfl | rfl
  · rw [ind_of_neg (fun hp => absurd (h.2 hp) (by decide))]; simp [FloatOps.uitofp]
  · rw [ind_of_pos (h.1 rfl)]; simp [FloatOps.uitofp]

/-- The pair bit at (i, p, n) is set exactly when the pair is active. -/
theorem v41_iff (X : Arr.Idx → ℝ) (g : IVec S256x1024 32) (i : Fin 256) (p n : Fin 1024) :
    val_main_v41 (F := Ideal) (asFloat X) g (ix3 i p n) = 1#1
      ↔ (posB (labelIs g) i p ∧ negB (labelIs g) i n) ∧ 0 ≤ score X i n - score X i p + 1 := by
  rw [val_main_v41_apply, val_main_v40_apply, andi_eq_one, andi_eq_one, v38_at, v39_at, pos_stage, neg_stage, v35_at,
    StableHlo.Predicate.ofBool_eq_one_iff, decide_eq_true_iff]

/-- The pair table as floats. -/
theorem active_stage (X : Arr.Idx → ℝ) (g : IVec S256x1024 32) (i : Fin 256) (p n : Fin 1024) :
    val_main_v42 (F := Ideal) (asFloat X) g (ValueIdx.ix3 i p n) = ((active (labelIs g) (score X) i p n : ℝ) : EReal) := by
  rw [val_main_v42_apply]
  exact uitofp_bit _ _ (v41_iff X g i p n)

/-! ## Its three sums -/

/-- Summed over the negatives: the active pairs of positive p. -/
theorem pairsOfPos_stage (X : Arr.Idx → ℝ) (g : IVec S256x1024 32) (i : Fin 256) (p : Fin 1024) :
    val_main_v43 (F := Ideal) (asFloat X) g (ValueIdx.ix2 i p) = ((pairsOfPos (labelIs g) (score X) i p : ℝ) : EReal) := by
  rw [val_main_v43_apply, val_main_cst_9_apply, Ideal.ofBits_def, IdealReal.ofBits_zero_f32]
  have h : ∀ k : Fin 1024, val_main_v42 (F := Ideal) (asFloat X) g (idx_main_v43 (ix2 i p) k)
      = ((active (labelIs g) (score X) i p k : ℝ) : EReal) := fun k => by
    rw [← active_stage]
    exact congrArg _ (funext fun a => by match a with | ⟨0, _⟩ => rfl | ⟨1, _⟩ => rfl | ⟨2, _⟩ => rfl)
  rw [Finset.sum_congr rfl (fun k _ => h k), ← IdealReal.coe_sum, ← EReal.coe_add, zero_add]
  rfl

/-- Summed over the positives: the active pairs of negative n. -/
theorem pairsOfNeg_stage (X : Arr.Idx → ℝ) (g : IVec S256x1024 32) (i : Fin 256) (n : Fin 1024) :
    val_main_v44 (F := Ideal) (asFloat X) g (ValueIdx.ix2 i n) = ((pairsOfNeg (labelIs g) (score X) i n : ℝ) : EReal) := by
  rw [val_main_v44_apply, val_main_cst_10_apply, Ideal.ofBits_def, IdealReal.ofBits_zero_f32]
  have h : ∀ k : Fin 1024, val_main_v42 (F := Ideal) (asFloat X) g (idx_main_v44 (ix2 i n) k)
      = ((active (labelIs g) (score X) i k n : ℝ) : EReal) := fun k => by
    rw [← active_stage]
    exact congrArg _ (funext fun a => by match a with | ⟨0, _⟩ => rfl | ⟨1, _⟩ => rfl | ⟨2, _⟩ => rfl)
  rw [Finset.sum_congr rfl (fun k _ => h k), ← IdealReal.coe_sum, ← EReal.coe_add, zero_add]
  rfl

/-- A sum over the last two axes of the cube, read at row `i`: the initial value plus the double sum over the two
    columns. The cube's indices whose first coordinate is `i` are the triples (i, p, n), one for each pair (p, n). -/
theorem hostReduceAdd_d12 (h : S256x1024x1024.ReducesTo [1, 2] S256) (x : S256x1024x1024.Idx → EReal) (init : EReal)
    (i : Fin 256) :
    Ideal.hostReduceAdd h x init (ix1 i) = init + ∑ p : Fin 1024, ∑ n : Fin 1024, x (ix3 i p n) := by
  classical
  unfold Ideal.hostReduceAdd
  have hdrop : ∀ j : S256x1024x1024.Idx, h.drop j = ix1 i ↔ j 0 = i := by
    intro j
    have hv : (h.drop j 0 : Nat) = j 0 := Shape.ReducesTo.drop_apply_val h j 0
    constructor
    · intro e; rw [e] at hv; exact Fin.ext hv.symm
    · intro e; funext b; have hb : b = 0 := Subsingleton.elim _ _; subst hb; exact Fin.ext (by rw [hv, e])
  have hback : ∀ j : S256x1024x1024.Idx, j 0 = i → ix3 i (j 1) (j 2) = j := fun j h0 => by
    funext b; match b with
    | ⟨0, _⟩ => exact h0.symm
    | ⟨1, _⟩ => rfl
    | ⟨2, _⟩ => rfl
  refine congrArg (init + ·) ?_
  rw [← Finset.sum_product' Finset.univ Finset.univ (fun p n : Fin 1024 => x (ix3 i p n))]
  refine Finset.sum_bij' (fun j _ => ((j 1 : Fin 1024), (j 2 : Fin 1024))) (fun q _ => ix3 i q.1 q.2)
    (fun _ _ => Finset.mem_product.2 ⟨Finset.mem_univ _, Finset.mem_univ _⟩)
    (fun q _ => Finset.mem_filter.2 ⟨Finset.mem_univ _, (hdrop _).2 rfl⟩)
    (fun j hj => hback j ((hdrop j).1 (Finset.mem_filter.1 hj).2)) (fun _ _ => rfl) ?_
  intro j hj
  exact (congrArg x (hback j ((hdrop j).1 (Finset.mem_filter.1 hj).2))).symm

/-- Summed over both: the row's active pairs. -/
theorem pairsTotal_stage (X : Arr.Idx → ℝ) (g : IVec S256x1024 32) (i : Fin 256) :
    val_main_v45 (F := Ideal) (asFloat X) g (ValueIdx.ix1 i) = ((pairsTotal (labelIs g) (score X) i : ℝ) : EReal) := by
  unfold val_main_v45
  rw [hostReduceAdd_apply, hostReduceAdd_d12, val_main_cst_11_apply, Ideal.ofBits_def, IdealReal.ofBits_zero_f32]
  simp only [active_stage]
  simp only [← IdealReal.coe_sum]
  rw [← EReal.coe_add, zero_add]
  rfl

end Cert.RankLoss.ReferencePairs

end
-- ==== Proof.ReferenceValue.lean ====
/-
  What the reference computes, for real logits: the pairwise form of the loss.
-/
import proofs.«412084_j59390807769109_3_alg».proof.Proof.ReferencePairs
import proofs.«412084_j59390807769109_3_alg».proof.Proof.RankLossSpec
import proofs.«412084_j59390807769109_3_alg».proof.Proof.RankLossInputs
import proofs.«412084_j59390807769109_3_alg».proof.Proof.LibIdealReal
import Idealize.ShloMosaic.Lib.ValueIdx
import Idealize.ShloMosaic.Lib.ValueIdxRank1
import Idealize.ShloMosaic.Lib.IdealHost
import Idealize.ShloMosaic.Lib.StableHlo.Predicate
import Idealize.ShloMosaic.PureOps.Ideal.Laws

noncomputable section

namespace Cert.RankLoss.ReferenceValue

open Idealize.ShloMosaic Cert.ReferenceIdeal Cert.ReferenceIdeal.Gen Cert.ReferenceIdeal.ReadP Cert.RankLoss
open Idealize.ShloMosaic.ValueIdx Cert.RankLoss.ReferenceLabels Cert.RankLoss.ReferencePairs
open scoped BigOperators

/-! ## The row's total, and the count of positives with an active pair -/

/-- The row's total of active pairs, times the constant 1. -/
theorem v47_at (X : Arr.Idx → ℝ) (g : IVec S256x1024 32) (i : Fin 256) :
    val_main_v47 (F := Ideal) (asFloat X) g (ix1 i) = ((1 * pairsTotal (labelIs g) (score X) i : ℝ) : EReal) := by
  rw [val_main_v47_apply, pairsTotal_stage, val_main_v46_apply, val_main_cst_12_apply, Ideal.ofBits_def,
    IdealReal.ofBits_one_f32, Ideal.mulf_def, ← EReal.coe_mul]

/-- "Positive p has an active pair": its number of active pairs is not zero. -/
theorem v49_at (X : Arr.Idx → ℝ) (g : IVec S256x1024 32) (i : Fin 256) (p : Fin 1024) :
    val_main_v49 (F := Ideal) (asFloat X) g (ix2 i p)
      = BitVec.ofBool (decide (pairsOfPos (labelIs g) (score X) i p ≠ 0)) := by
  rw [val_main_v49_apply, pairsOfPos_stage, val_main_v48_apply, val_main_cst_13_apply, Ideal.ofBits_def,
    IdealReal.ofBits_zero_f32]
  exact IdealReal.cmp_une_coe _ _

theorem v49_iff (X : Arr.Idx → ℝ) (g : IVec S256x1024 32) (i : Fin 256) (p : Fin 1024) :
    val_main_v49 (F := Ideal) (asFloat X) g (StableHlo.Predicate.ij i p) = 1#1
      ↔ pairsOfPos (labelIs g) (score X) i p ≠ 0 := by
  have e : (StableHlo.Predicate.ij i p : S256x1024.Idx) = ix2 i p := by
    funext a; match a with | ⟨0, _⟩ => rfl | ⟨1, _⟩ => rfl
  rw [e, v49_at, StableHlo.Predicate.ofBool_eq_one_iff, decide_eq_true_iff]

/-- The number of positives of row `i` with an active pair, counted in a 32-bit word: at most 1024, so it does not wrap. -/
theorem v51_toNat (X : Arr.Idx → ℝ) (g : IVec S256x1024 32) (i : Fin 256) :
    (val_main_v51 (F := Ideal) (asFloat X) g (ix1 i)).toNat
      = (Finset.univ.filter (fun p : Fin 1024 => pairsOfPos (labelIs g) (score X) i p ≠ 0)).card := by
  classical
  unfold val_main_v51 val_main_v50 val_main_c_14
  rw [StableHlo.Predicate.toNat_reduce_count_cols (by decide)]
  refine congrArg Finset.card (Finset.filter_congr fun p _ => ?_)
  exact v49_iff X g i p

/-- That count as a float: a count below 2³¹ reads the same signed, and a count is the sum of the indicators. -/
theorem v52_at (X : Arr.Idx → ℝ) (g : IVec S256x1024 32) (i : Fin 256) :
    val_main_v52 (F := Ideal) (asFloat X) g (ix1 i) = ((lnCount (labelIs g) (score X) i : ℝ) : EReal) := by
  classical
  rw [val_main_v52_apply]
  show ((((val_main_v51 (F := Ideal) (asFloat X) g (ix1 i)).toInt : ℤ) : ℝ) : EReal) = _
  have hle : (Finset.univ.filter (fun p : Fin 1024 => pairsOfPos (labelIs g) (score X) i p ≠ 0)).card ≤ 1024 := by
    refine (Finset.card_le_univ _).trans ?_
    rw [Fintype.card_fin]
  rw [StableHlo.Predicate.toInt_eq_toNat_of_lt (by rw [v51_toNat]; omega), v51_toNat, Int.cast_natCast,
    card_filter_eq_sum_ind]
  rfl

/-- The row's normalizer is 1 or a count that is not zero. -/
theorem lnPairwise_ne_zero (X : Arr.Idx → ℝ) (g : IVec S256x1024 32) (i : Fin 256) :
    lnPairwise (labelIs g) (score X) i ≠ 0 := by
  unfold lnPairwise
  split_ifs with h
  · exact one_ne_zero
  · exact h

/-- The row's normalizer: the count, 1 in place of 0. -/
theorem v55_at (X : Arr.Idx → ℝ) (g : IVec S256x1024 32) (i : Fin 256) :
    val_main_v55 (F := Ideal) (asFloat X) g (ix1 i) = ((lnPairwise (labelIs g) (score X) i : ℝ) : EReal) := by
  rw [val_main_v55_apply, val_main_v54_apply, v52_at, val_main_v53_apply, val_main_cst_15_apply, Ideal.ofBits_def,
    IdealReal.ofBits_zero_f32, val_main_call1_v1_apply, val_main_call1_v0_apply, val_main_cst_16_apply, Ideal.ofBits_def,
    IdealReal.ofBits_one_f32]
  show Scalar.select (Ideal.cmp .oeq _ _) _ _ = _
  rw [IdealReal.cmp_oeq_coe, IdealReal.select_ofBool]
  unfold lnPairwise
  by_cases h : lnCount (labelIs g) (score X) i = 0
  · rw [if_pos (decide_eq_true h), if_pos h]
  · rw [if_neg (fun e => h (of_decide_eq_true e)), if_neg h]

/-! ## The row's loss -/

/-- The positives' side: `∑ₚ P p · s[p]`. -/
theorem v57_at (X : Arr.Idx → ℝ) (g : IVec S256x1024 32) (i : Fin 256) :
    val_main_v57 (F := Ideal) (asFloat X) g (ix1 i)
      = ((∑ p : Fin 1024, pairsOfPos (labelIs g) (score X) i p * score X i p : ℝ) : EReal) := by
  rw [val_main_v57_apply, val_main_cst_17_apply, Ideal.ofBits_def, IdealReal.ofBits_zero_f32]
  have h : ∀ k : Fin 1024, val_main_v56 (F := Ideal) (asFloat X) g (idx_main_v57 (ix1 i) k)
      = ((pairsOfPos (labelIs g) (score X) i k * score X i k : ℝ) : EReal) := fun k => by
    have e : idx_main_v57 (ix1 i) k = ix2 i k := by
      funext a; match a with | ⟨0, _⟩ => rfl | ⟨1, _⟩ => rfl
    rw [e, val_main_v56_apply, pairsOfPos_stage, score_stage, Ideal.mulf_def, ← EReal.coe_mul]
  rw [Finset.sum_congr rfl (fun k _ => h k), ← IdealReal.coe_sum, ← EReal.coe_add, zero_add]

/-- The negatives' side: `∑ₙ N n · s[n]`. -/
theorem v60_at (X : Arr.Idx → ℝ) (g : IVec S256x1024 32) (i : Fin 256) :
    val_main_v60 (F := Ideal) (asFloat X) g (ix1 i)
      = ((∑ n : Fin 1024, pairsOfNeg (labelIs g) (score X) i n * score X i n : ℝ) : EReal) := by
  rw [val_main_v60_apply, val_main_cst_18_apply, Ideal.ofBits_def, IdealReal.ofBits_zero_f32]
  have h : ∀ k : Fin 1024, val_main_v59 (F := Ideal) (asFloat X) g (idx_main_v60 (ix1 i) k)
      = ((pairsOfNeg (labelIs g) (score X) i k * score X i k : ℝ) : EReal) := fun k => by
    have e : idx_main_v60 (ix1 i) k = ix2 i k := by
      funext a; match a with | ⟨0, _⟩ => rfl | ⟨1, _⟩ => rfl
    rw [e, val_main_v59_apply, pairsOfNeg_stage, score_stage, Ideal.mulf_def, ← EReal.coe_mul]
  rw [Finset.sum_congr rfl (fun k _ => h k), ← IdealReal.coe_sum, ← EReal.coe_add, zero_add]

/-- The row's loss: `(-∑ₚ P p · s[p] + ∑ₙ N n · s[n] + L) / ln`, the divisor not zero. -/
theorem v63_at (X : Arr.Idx → ℝ) (g : IVec S256x1024 32) (i : Fin 256) :
    val_main_v63 (F := Ideal) (asFloat X) g (ix1 i) = ((rowLossPairwise (labelIs g) (score X) i : ℝ) : EReal) := by
  rw [val_main_v63_apply, val_main_v62_apply, val_main_v61_apply, val_main_v58_apply, v57_at, v60_at, v47_at, v55_at,
    Ideal.hostNegf_def, Ideal.negf_def, Ideal.addf_def, Ideal.addf_def, Ideal.hostDivf_def, ← EReal.coe_neg,
    ← EReal.coe_add, ← EReal.coe_add, IdealReal.div_coe_coe _ _ (lnPairwise_ne_zero X g i)]
  rfl

/-! ## The batch's loss -/

/-- The sum of the rows' losses. -/
theorem v64_at (X : Arr.Idx → ℝ) (g : IVec S256x1024 32) (k : S_.Idx) :
    val_main_v64 (F := Ideal) (asFloat X) g k = ((∑ i : Fin 256, rowLossPairwise (labelIs g) (score X) i : ℝ) : EReal) := by
  rw [val_main_v64_apply, val_main_cst_19_apply, Ideal.ofBits_def, IdealReal.ofBits_zero_f32,
    ← Equiv.sum_comp (idxEquiv1 (n := 256)).symm]
  have h : ∀ i : Fin 256, val_main_v63 (F := Ideal) (asFloat X) g ((idxEquiv1 (n := 256)).symm i)
      = ((rowLossPairwise (labelIs g) (score X) i : ℝ) : EReal) := fun i => v63_at X g i
  rw [Finset.sum_congr rfl (fun i _ => h i), ← IdealReal.coe_sum, ← EReal.coe_add, zero_add]

/-- The reference's result on real logits is the pairwise loss of the labels and the logits' scores. -/
theorem reference_value (X : Arr.Idx → ℝ) (g : IVec S256x1024 32) :
    val_main_v67 (F := Ideal) (asFloat X) g = fun _ => ((pairwiseLoss (labelIs g) (score X) : ℝ) : EReal) := by
  funext k
  have hb : (if bnPairwise (labelIs g) = 0 then 1 else bnPairwise (labelIs g) : ℝ) ≠ 0 := by
    split_ifs with h
    · exact one_ne_zero
    · exact h
  rw [val_main_v67_apply, val_main_v65_apply, val_main_v66_apply, v64_at, bn_stage, Ideal.hostDivf_def,
    IdealReal.div_coe_coe _ _ hb]
  rfl

end Cert.RankLoss.ReferenceValue

end
-- ==== Proof.PairwiseCollapse.lean ====
/-
  The pairwise ranking loss collapses to per-row counts and sums when every score lies in [0, 1].

  With `0 ≤ S ≤ 1` a margin `S n - S p + 1` is at least `0 - 1 + 1 = 0`, so in a row that counts every (positive,
  negative) pair is active. Writing `k` for the row's number of positives and `C` for its length: a positive has
  `C - k` active pairs and a negative `k`, there are `k (C - k)` in all, and — the row having a negative, `C - k > 0` —
  the positives with an active pair are all `k` of them. A row that does not count has no active pair at all and
  loss `0 / 1` in both forms. The batch normalizers are the same counts of rows.
-/
import proofs.«412084_j59390807769109_3_alg».proof.Proof.RankLossSpec
import Mathlib.Algebra.BigOperators.Ring.Finset
import Mathlib.Algebra.Order.BigOperators.Group.Finset
import Mathlib.Data.Fintype.Card
import Mathlib.Data.Real.Basic
import Mathlib.Tactic.Linarith
import Mathlib.Tactic.Ring

noncomputable section

namespace Cert.RankLoss

open scoped BigOperators

variable {ι κ : Type} [Fintype ι] [Fintype κ]

/-! ## The indicator lies in [0, 1] -/

theorem ind_nonneg (p : Prop) : 0 ≤ ind p := by
  by_cases h : p
  · rw [ind_of_pos h]; exact zero_le_one
  · rw [ind_of_neg h]

theorem ind_le_one (p : Prop) : ind p ≤ 1 := by
  by_cases h : p
  · rw [ind_of_pos h]
  · rw [ind_of_neg h]; exact zero_le_one

/-! ## The row's count of positives decides whether it has a positive and whether it has only positives -/

section Row
variable (b : ι → κ → Prop) (S : ι → κ → ℝ) (i : ι)

/-- The count is positive exactly when some label is positive: a sum of indicators that all vanish is 0, and a
sum of non-negative terms is at least any one of them. -/
theorem rowCount_pos_iff : 0 < rowCount b i ↔ anyB b i := by
  unfold rowCount anyB
  constructor
  · intro h
    by_contra hn
    have : ∑ j, ind (b i j) = 0 :=
      Finset.sum_eq_zero fun j _ => ind_of_neg fun hj => hn ⟨j, hj⟩
    rw [this] at h
    exact lt_irrefl _ h
  · rintro ⟨j, hj⟩
    have h1 : ind (b i j) ≤ ∑ j, ind (b i j) :=
      Finset.single_le_sum (f := fun j => ind (b i j)) (fun j _ => ind_nonneg _) (Finset.mem_univ j)
    rw [ind_of_pos hj] at h1
    exact lt_of_lt_of_le zero_lt_one h1

/-- The count reaches the row's length exactly when every label is positive: each indicator is at most 1, and one
that is 0 makes the sum strictly less than the sum of ones. -/
theorem card_le_rowCount_iff : (Fintype.card κ : ℝ) ≤ rowCount b i ↔ allB b i := by
  unfold rowCount allB
  constructor
  · intro h
    by_contra hn
    rw [not_forall] at hn
    obtain ⟨j, hj⟩ := hn
    have : ∑ j : κ, ind (b i j) < ∑ _j : κ, (1 : ℝ) :=
      Finset.sum_lt_sum (fun j _ => ind_le_one _)
        ⟨j, Finset.mem_univ j, by rw [ind_of_neg hj]; exact zero_lt_one⟩
    rw [Finset.sum_const, Finset.card_univ, nsmul_eq_mul, mul_one] at this
    exact absurd h (not_le.mpr this)
  · intro h
    have : ∑ j : κ, ind (b i j) = ∑ _j : κ, (1 : ℝ) := Finset.sum_congr rfl fun j _ => ind_of_pos (h j)
    rw [Finset.sum_const, Finset.card_univ, nsmul_eq_mul, mul_one] at this
    rw [this]

theorem anyRow_eq : anyRow b i = ind (anyB b i) := by
  unfold anyRow; exact ind_congr (rowCount_pos_iff b i)

theorem allRow_eq : allRow b (Fintype.card κ) i = ind (allB b i) := by
  unfold allRow; exact ind_congr (card_le_rowCount_iff b i)

/-- [has a positive] · (1 - [only positives]) is the indicator of a row that counts. -/
theorem validRow_eq : validRow b (Fintype.card κ) i = ind (validB b i) := by
  unfold validRow validB
  rw [anyRow_eq, allRow_eq]
  by_cases h1 : anyB b i <;> by_cases h2 : allB b i
  · rw [ind_of_pos h1, ind_of_pos h2, ind_of_neg (fun h => h.2 h2)]; ring
  · rw [ind_of_pos h1, ind_of_neg h2, ind_of_pos ⟨h1, h2⟩]; ring
  · rw [ind_of_neg h1, ind_of_pos h2, ind_of_neg (fun h => h1 h.1)]; ring
  · rw [ind_of_neg h1, ind_of_neg h2, ind_of_neg (fun h => h1 h.1)]; ring

/-- The number of negatives is the length minus the number of positives. -/
theorem sum_one_sub_ind : ∑ j, (1 - ind (b i j)) = (Fintype.card κ : ℝ) - rowCount b i := by
  unfold rowCount
  rw [Finset.sum_sub_distrib, Finset.sum_const, Finset.card_univ, nsmul_eq_mul, mul_one]

theorem rowCount_pos_of_valid (h : validB b i) : 0 < rowCount b i := (rowCount_pos_iff b i).mpr h.1

theorem rowCount_lt_card_of_valid (h : validB b i) : rowCount b i < (Fintype.card κ : ℝ) :=
  lt_of_not_ge fun hge => h.2 ((card_le_rowCount_iff b i).mp hge)

/-! ## A row that does not count: every weight and every pair vanishes, and both losses are 0 -/

theorem rowLossClosed_of_not_valid (h : ¬validB b i) : rowLossClosed b S (Fintype.card κ) i = 0 := by
  have hv : validRow b (Fintype.card κ) i = 0 := by rw [validRow_eq, ind_of_neg h]
  unfold rowLossClosed nNeg nPos sumPos sumNeg posW negW
  simp only [hv, mul_zero, zero_mul, Finset.sum_const_zero, sub_zero, add_zero, zero_div]

theorem active_of_not_valid (h : ¬validB b i) (p n : κ) : active b S i p n = 0 := by
  unfold active posB
  exact ind_of_neg fun hh => h hh.1.1.2

theorem rowLossPairwise_of_not_valid (h : ¬validB b i) : rowLossPairwise b S i = 0 := by
  unfold rowLossPairwise pairsOfPos pairsOfNeg pairsTotal
  simp only [active_of_not_valid b S i h, Finset.sum_const_zero, zero_mul, neg_zero, mul_zero, add_zero,
    zero_div]

/-! ## A row that counts: every (positive, negative) pair is active -/

variable (hS : ∀ i j, 0 ≤ S i j ∧ S i j ≤ 1) (h : validB b i)
include hS h

/-- The margin `S n - S p + 1 ≥ 0 - 1 + 1` is non-negative, so a pair is active exactly when `p` is positive and
`n` negative. -/
theorem active_of_valid (p n : κ) : active b S i p n = ind (b i p) * (1 - ind (b i n)) := by
  unfold active posB negB
  have hm : 0 ≤ S i n - S i p + 1 := by linarith [(hS i n).1, (hS i p).2]
  by_cases hp : b i p <;> by_cases hn : b i n
  · rw [ind_of_pos hp, ind_of_pos hn, ind_of_neg (fun hh => hh.1.2.1 hn)]; ring
  · rw [ind_of_pos hp, ind_of_neg hn, ind_of_pos ⟨⟨⟨hp, h⟩, ⟨hn, h⟩⟩, hm⟩]; ring
  · rw [ind_of_neg hp, ind_of_pos hn, ind_of_neg (fun hh => hp hh.1.1.1)]; ring
  · rw [ind_of_neg hp, ind_of_neg hn, ind_of_neg (fun hh => hp hh.1.1.1)]; ring

/-- A positive is paired with every negative. -/
theorem pairsOfPos_of_valid (p : κ) :
    pairsOfPos b S i p = ind (b i p) * ((Fintype.card κ : ℝ) - rowCount b i) := by
  unfold pairsOfPos
  rw [← sum_one_sub_ind, Finset.mul_sum]
  exact Finset.sum_congr rfl fun n _ => active_of_valid b S i hS h p n

/-- A negative is paired with every positive. -/
theorem pairsOfNeg_of_valid (n : κ) : pairsOfNeg b S i n = rowCount b i * (1 - ind (b i n)) := by
  unfold pairsOfNeg rowCount
  rw [Finset.sum_mul]
  exact Finset.sum_congr rfl fun p _ => active_of_valid b S i hS h p n

theorem pairsTotal_of_valid :
    pairsTotal b S i = rowCount b i * ((Fintype.card κ : ℝ) - rowCount b i) := by
  have e : pairsTotal b S i = ∑ p, pairsOfPos b S i p := rfl
  rw [e, Finset.sum_congr rfl fun p _ => pairsOfPos_of_valid b S i hS h p, ← Finset.sum_mul]
  rfl

/-- There is a negative, so the positives with an active pair are all the positives. -/
theorem lnCount_of_valid : lnCount b S i = rowCount b i := by
  have hne : (Fintype.card κ : ℝ) - rowCount b i ≠ 0 :=
    ne_of_gt (sub_pos.mpr (rowCount_lt_card_of_valid b i h))
  unfold lnCount rowCount
  refine Finset.sum_congr rfl fun p _ => ?_
  rw [pairsOfPos_of_valid b S i hS h p]
  by_cases hp : b i p
  · rw [ind_of_pos hp, one_mul, ind_of_pos hne]
  · rw [ind_of_neg hp, zero_mul, ind_of_neg (fun hh => hh rfl)]

theorem lnPairwise_of_valid : lnPairwise b S i = rowCount b i := by
  unfold lnPairwise
  rw [lnCount_of_valid b S i hS h, if_neg (ne_of_gt (rowCount_pos_of_valid b i h))]

omit hS

theorem nPos_of_valid : nPos b (Fintype.card κ) i = rowCount b i := by
  unfold nPos posW rowCount
  rw [validRow_eq, ind_of_pos h]
  exact Finset.sum_congr rfl fun j _ => mul_one _

theorem nNeg_of_valid : nNeg b (Fintype.card κ) i = (Fintype.card κ : ℝ) - rowCount b i := by
  unfold nNeg negW
  rw [validRow_eq, ind_of_pos h, ← sum_one_sub_ind]
  exact Finset.sum_congr rfl fun j _ => mul_one _

theorem sumPos_of_valid : sumPos b S (Fintype.card κ) i = ∑ j, ind (b i j) * S i j := by
  unfold sumPos posW
  rw [validRow_eq, ind_of_pos h]
  exact Finset.sum_congr rfl fun j _ => by rw [mul_one]

theorem sumNeg_of_valid : sumNeg b S (Fintype.card κ) i = ∑ j, (1 - ind (b i j)) * S i j := by
  unfold sumNeg negW
  rw [validRow_eq, ind_of_pos h]
  exact Finset.sum_congr rfl fun j _ => by rw [mul_one]

theorem lnClosed_of_valid : lnClosed b (Fintype.card κ) i = rowCount b i := by
  unfold lnClosed
  rw [nPos_of_valid b i h, if_neg (ne_of_gt (rowCount_pos_of_valid b i h))]

include hS

/-- Both losses of a row that counts are
`( -(C - k) ∑ₚ [p positive] S p + k ∑ₙ [n negative] S n + k (C - k) ) / k`. -/
theorem rowLoss_eq_of_valid : rowLossPairwise b S i = rowLossClosed b S (Fintype.card κ) i := by
  unfold rowLossPairwise rowLossClosed
  rw [lnPairwise_of_valid b S i hS h, lnClosed_of_valid b i h, nPos_of_valid b i h, nNeg_of_valid b i h,
    sumPos_of_valid b S i h, sumNeg_of_valid b S i h, pairsTotal_of_valid b S i hS h,
    Finset.sum_congr rfl fun p _ => congrArg (· * S i p) (pairsOfPos_of_valid b S i hS h p),
    Finset.sum_congr rfl fun n _ => congrArg (· * S i n) (pairsOfNeg_of_valid b S i hS h n)]
  congr 1
  rw [Finset.mul_sum, Finset.mul_sum, ← Finset.sum_neg_distrib]
  congr 1; congr 1
  · exact Finset.sum_congr rfl fun p _ => by ring
  · exact Finset.sum_congr rfl fun n _ => by ring
  · ring

end Row

/-! ## The batch -/

theorem rowLoss_eq (b : ι → κ → Prop) (S : ι → κ → ℝ) (hS : ∀ i j, 0 ≤ S i j ∧ S i j ≤ 1) (i : ι) :
    rowLossPairwise b S i = rowLossClosed b S (Fintype.card κ) i := by
  by_cases h : validB b i
  · exact rowLoss_eq_of_valid b S i hS h
  · rw [rowLossPairwise_of_not_valid b S i h, rowLossClosed_of_not_valid b S i h]

/-- The batch normalizers count the same rows. -/
theorem bnPairwise_eq (b : ι → κ → Prop) : bnPairwise b = bnClosed b (Fintype.card κ) := by
  unfold bnPairwise bnClosed
  rw [Finset.sum_congr rfl fun i _ => anyRow_eq b i, Finset.sum_congr rfl fun i _ => allRow_eq b i]

/-- The two forms of the loss agree for scores in [0, 1]. -/
theorem pairwiseLoss_eq_closedLoss (b : ι → κ → Prop) (S : ι → κ → ℝ) (hS : ∀ i j, 0 ≤ S i j ∧ S i j ≤ 1) :
    pairwiseLoss b S = closedLoss b S (Fintype.card κ) := by
  unfold pairwiseLoss closedLoss
  rw [bnPairwise_eq, Finset.sum_congr rfl fun i _ => rowLoss_eq b S hS i]

end Cert.RankLoss

end
-- ==== Proof.lean ====
/-
  The pairwise margin ranking loss, computed two ways, is one function of real logits.

  The reference builds, for every row, the [1024 × 1024] table of (positive, negative) label pairs whose margin
  `s[n] - s[p] + 1` is non-negative and sums it three ways; the kernel keeps per-row counts and two per-row sums of
  scores. The scores are logistic values, so they lie in [0, 1] and every margin is non-negative: the table of
  active pairs is the full product of a row's positives and negatives, and the three sums collapse to the counts
  (Proof/PairwiseCollapse.lean). Both programs are first read as the embedding of a REAL number: the inputs are
  finite by the precondition (Proof/FiniteInputs.lean), the kernel's result is the closed form
  (Proof/KernelRun.lean, KernelPayloads.lean, KernelValue.lean) and the reference's the pairwise form
  (Proof/ReferenceLabels.lean, ReferenceValue.lean, over the reference's run read stage by stage). The kernel's
  idealization rewrote no operation, so `preserves` has nothing to state.
-/
import proofs.«412084_j59390807769109_3_alg».proof.Defs
import proofs.«412084_j59390807769109_3_alg».proof.Proof.Gen.Kernel
import proofs.«412084_j59390807769109_3_alg».proof.Proof.Gen.Kernel.Skeleton
import proofs.«412084_j59390807769109_3_alg».proof.Proof.Gen.Kernel.Launch
import proofs.«412084_j59390807769109_3_alg».proof.Proof.Gen.Kernel.Points
import proofs.«412084_j59390807769109_3_alg».proof.Proof.Gen.Kernel.Frame
import proofs.«412084_j59390807769109_3_alg».proof.Proof.Gen.KernelIdeal
import proofs.«412084_j59390807769109_3_alg».proof.Proof.Gen.KernelIdeal.Skeleton
import proofs.«412084_j59390807769109_3_alg».proof.Proof.Gen.KernelIdeal.Launch
import proofs.«412084_j59390807769109_3_alg».proof.Proof.Gen.KernelIdeal.Points
import proofs.«412084_j59390807769109_3_alg».proof.Proof.Gen.KernelIdeal.Frame
import proofs.«412084_j59390807769109_3_alg».proof.Proof.Gen.ReferenceIdeal
import proofs.«412084_j59390807769109_3_alg».proof.Proof.Gen.Pre_finite_inputs
import proofs.«412084_j59390807769109_3_alg».proof.Proof.ReferenceRun
import proofs.«412084_j59390807769109_3_alg».proof.Proof.ReferenceRead
import proofs.«412084_j59390807769109_3_alg».proof.Proof.FiniteInputs
import proofs.«412084_j59390807769109_3_alg».proof.Proof.KernelValue
import proofs.«412084_j59390807769109_3_alg».proof.Proof.ReferenceValue
import proofs.«412084_j59390807769109_3_alg».proof.Proof.PairwiseCollapse
import Idealize.ShloMosaic.Adequacy
import Idealize.ShloMosaic.Init

noncomputable section

namespace Cert.Proof

open Idealize.ShloMosaic Idealize.SL.Sem Cert.RankLoss

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the closed-form loss of the labels and the logits' scores: the kernel directly, the
    reference through the collapse of its pairwise form (the row length 1024 is the number of columns). -/
theorem algebraic : Cert.algebraic_KernelIdeal_ReferenceIdeal := by
  intro m ρ m' ρ' hpre hagree
  choose X hX using fun c => Finite.real_of_pre _ _ (hpre c)
  refine ⟨fun c => fun _ => ((closedLoss (labelIs (m ((c.tc : Thread Cert.KernelIdeal.nD Cert.KernelIdeal.τ).loc Cert.KernelIdeal.main_arg1))) (score (X c)) 1024 : ℝ) : EReal), ?_, ?_⟩
  · refine (θ_run Cert.KernelIdeal.defs _ _).mono (fun _ h c => ⟨(h c).1.trans ?_, (h c).2⟩) (KernelRun.run (F := Ideal) m ρ)
    rw [hX c]
    exact KernelValue.kernel_value (X c) _
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v67_eq, (hagree c).1, (hagree c).2, hX c, ReferenceValue.reference_value,
      pairwiseLoss_eq_closedLoss _ _ (score_mem (X c)), Fintype.card_fin, Nat.cast_ofNat]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
